-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x2 : Shape := ⟨3, ![256, 8192, 2]⟩
abbrev S256x16383 : Shape := ⟨2, ![256, 16383]⟩
abbrev S_ : Shape := ⟨0, ![]⟩

class Facts : Prop where
  bcast_S_S256x8192x2 : S_.BroadcastsInDim S256x8192x2 (![] : Fin 0 → Fin S256x8192x2.rank)
  reducesTo_S256x8192x2_S_d0_1_2 : S256x8192x2.ReducesTo [0, 1, 2] S_
  h_S_ : 0 < S_.numel
  bcast_S_S256x16383 : S_.BroadcastsInDim S256x16383 (![] : Fin 0 → Fin S256x16383.rank)
  reducesTo_S256x16383_S_d0_1 : S256x16383.ReducesTo [0, 1] S_

variable [Facts]

def fn_part1 {F : FTy → Type} [FloatOps F] (main_arg3 : IVec S256x16383 32) (main_v12 : IVec S_ 1) (main_v15 : IVec S_ 1) : IVec S_ 1 :=
  let main_v16 : IVec S_ 1 := andi main_v12 main_v15
  let main_c_6 : IVec S_ 32 := constantI S_ 32 0#32
  let main_v17 : IVec S256x16383 32 := broadcastInDim S256x16383 ![] bcast_S_S256x16383 main_c_6
  let main_v18 : IVec S256x16383 1 := cmpi .sge main_arg3 main_v17
  let main_c_7 : IVec S_ 1 := constantI S_ 1 1#1
  let main_v19 : IVec S_ 1 := (fun x v => Host.reduce IntOp.andi x v reducesTo_S256x16383_S_d0_1 h_S_) main_v18 main_c_7
  let main_v20 : IVec S_ 1 := andi main_v16 main_v19
  let main_c_8 : IVec S_ 32 := constantI S_ 32 8192#32
  let main_v21 : IVec S256x16383 32 := broadcastInDim S256x16383 ![] bcast_S_S256x16383 main_c_8
  let main_v22 : IVec S256x16383 1 := cmpi .slt main_arg3 main_v21
  let main_c_9 : IVec S_ 1 := constantI S_ 1 1#1
  let main_v23 : IVec S_ 1 := (fun x v => Host.reduce IntOp.andi x v reducesTo_S256x16383_S_d0_1 h_S_) main_v22 main_c_9
  let main_v24 : IVec S_ 1 := andi main_v20 main_v23
  main_v24

def fn {F : FTy → Type} [FloatOps F] (main_arg0 : FVec F S256x8192x2 .f32) (main_arg1 : FVec F S256x8192x2 .f32) (main_arg2 : IVec S256x16383 32) (main_arg3 : IVec S256x16383 32) : IVec S_ 1 :=
  let main_v0 : FVec F S256x8192x2 .f32 := Host.absf main_arg0
  let main_cst : FVec F S_ .f32 := constant S_ .f32 0x7F800000#32
  let main_v1 : FVec F S256x8192x2 .f32 := broadcastInDim S256x8192x2 ![] bcast_S_S256x8192x2 main_cst
  let main_v2 : IVec S256x8192x2 1 := cmpf .olt main_v0 main_v1
  let main_c : IVec S_ 1 := constantI S_ 1 1#1
  let main_v3 : IVec S_ 1 := (fun x v => Host.reduce IntOp.andi x v reducesTo_S256x8192x2_S_d0_1_2 h_S_) main_v2 main_c
  let main_v4 : FVec F S256x8192x2 .f32 := Host.absf main_arg1
  let main_cst_0 : FVec F S_ .f32 := constant S_ .f32 0x7F800000#32
  let main_v5 : FVec F S256x8192x2 .f32 := broadcastInDim S256x8192x2 ![] bcast_S_S256x8192x2 main_cst_0
  let main_v6 : IVec S256x8192x2 1 := cmpf .olt main_v4 main_v5
  let main_c_1 : IVec S_ 1 := constantI S_ 1 1#1
  let main_v7 : IVec S_ 1 := (fun x v => Host.reduce IntOp.andi x v reducesTo_S256x8192x2_S_d0_1_2 h_S_) main_v6 main_c_1
  let main_v8 : IVec S_ 1 := andi main_v3 main_v7
  let main_c_2 : IVec S_ 32 := constantI S_ 32 0#32
  let main_v9 : IVec S256x16383 32 := broadcastInDim S256x16383 ![] bcast_S_S256x16383 main_c_2
  let main_v10 : IVec S256x16383 1 := cmpi .sge main_arg2 main_v9
  let main_c_3 : IVec S_ 1 := constantI S_ 1 1#1
  let main_v11 : IVec S_ 1 := (fun x v => Host.reduce IntOp.andi x v reducesTo_S256x16383_S_d0_1 h_S_) main_v10 main_c_3
  let main_v12 : IVec S_ 1 := andi main_v8 main_v11
  let main_c_4 : IVec S_ 32 := constantI S_ 32 8192#32
  let main_v13 : IVec S256x16383 32 := broadcastInDim S256x16383 ![] bcast_S_S256x16383 main_c_4
  let main_v14 : IVec S256x16383 1 := cmpi .slt main_arg2 main_v13
  let main_c_5 : IVec S_ 1 := constantI S_ 1 1#1
  let main_v15 : IVec S_ 1 := (fun x v => Host.reduce IntOp.andi x v reducesTo_S256x16383_S_d0_1 h_S_) main_v14 main_c_5
  fn_part1 (F := F) main_arg3 main_v12 main_v15
-- ==== Kernel.lean ====
abbrev S256x8192x2 : Shape := ⟨3, ![256, 8192, 2]⟩
abbrev S256x16383 : Shape := ⟨2, ![256, 16383]⟩
abbrev S256x2x8192 : Shape := ⟨3, ![256, 2, 8192]⟩
abbrev S_ : Shape := ⟨0, ![]⟩
abbrev S256x16384 : Shape := ⟨2, ![256, 16384]⟩
abbrev S256x1x16384 : Shape := ⟨3, ![256, 1, 16384]⟩
abbrev S256x1x1 : Shape := ⟨3, ![256, 1, 1]⟩
abbrev S16x2x8192 : Shape := ⟨3, ![16, 2, 8192]⟩
abbrev S16x1x256 : Shape := ⟨3, ![16, 1, 256]⟩
abbrev S16x1x1 : Shape := ⟨3, ![16, 1, 1]⟩
abbrev S8192x256 : Shape := ⟨2, ![8192, 256]⟩
abbrev S1x2x8192 : Shape := ⟨3, ![1, 2, 8192]⟩
abbrev S2x8192 : Shape := ⟨2, ![2, 8192]⟩
abbrev S1x1x256 : Shape := ⟨3, ![1, 1, 256]⟩
abbrev S1x256 : Shape := ⟨2, ![1, 256]⟩
abbrev S2x256 : Shape := ⟨2, ![2, 256]⟩
abbrev S256 : Shape := ⟨1, ![256]⟩
abbrev S1 : Shape := ⟨1, ![1]⟩
abbrev S1x1 : Shape := ⟨2, ![1, 1]⟩
abbrev S1x1x1 : Shape := ⟨3, ![1, 1, 1]⟩

abbrev nBuf : Space → Nat
  | .hbm => 19
  | .vmem => 10
  | .smem => 0
  | _ => 0

abbrev bufTy : (tb : Table) → Fin (tcTables nBuf tb) → BufTy
  | .hbm, ⟨0, _⟩ => ⟨S256x8192x2, .f32⟩
  | .hbm, ⟨1, _⟩ => ⟨S256x8192x2, .f32⟩
  | .hbm, ⟨2, _⟩ => ⟨S256x16383, .i32⟩
  | .hbm, ⟨3, _⟩ => ⟨S256x16383, .i32⟩
  | .hbm, ⟨4, _⟩ => ⟨S256x2x8192, .f32⟩
  | .hbm, ⟨5, _⟩ => ⟨S256x2x8192, .f32⟩
  | .hbm, ⟨6, _⟩ => ⟨S_, .i32⟩
  | .hbm, ⟨7, _⟩ => ⟨S_, .i32⟩
  | .hbm, ⟨8, _⟩ => ⟨S256x16384, .i32⟩
  | .hbm, ⟨9, _⟩ => ⟨S_, .i32⟩
  | .hbm, ⟨10, _⟩ => ⟨S_, .i32⟩
  | .hbm, ⟨11, _⟩ => ⟨S256x16384, .i32⟩
  | .hbm, ⟨12, _⟩ => ⟨S256x1x16384, .i32⟩
  | .hbm, ⟨13, _⟩ => ⟨S256x1x16384, .i32⟩
  | .hbm, ⟨14, _⟩ => ⟨S256x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S16x2x8192, .f32⟩
  | .local _ .vmem, ⟨1, _⟩ => ⟨S16x2x8192, .f32⟩
  | .local _ .vmem, ⟨2, _⟩ => ⟨S16x2x8192, .f32⟩
  | .local _ .vmem, ⟨3, _⟩ => ⟨S16x2x8192, .f32⟩
  | .local _ .vmem, ⟨4, _⟩ => ⟨S16x1x256, .i32⟩
  | .local _ .vmem, ⟨5, _⟩ => ⟨S16x1x256, .i32⟩
  | .local _ .vmem, ⟨6, _⟩ => ⟨S16x1x256, .i32⟩
  | .local _ .vmem, ⟨7, _⟩ => ⟨S16x1x256, .i32⟩
  | .local _ .vmem, ⟨8, _⟩ => ⟨S16x1x1, .f32⟩
  | .local _ .vmem, ⟨9, _⟩ => ⟨S16x1x1, .f32⟩
  | _, _ => ⟨S256x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 64], ![false, false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off1 (k0_t1 : Fin k0_t1_loop.trips) : Fin 3 → Nat :=
  let c0_i32_1 : BitVec 32 := 0#32
  let c1_i32 : BitVec 32 := 1#32
  let arg7 : BitVec 32 := Scf.iv c0_i32_1 c1_i32 k0_t1
  let v5 : Index := Scalar.indexCast arg7
  let c0 : Index := 0#32
  let c0_3 : Index := 0#32
  ![v5.toNat, 0, 0]
def k0_off2 (k0_t1 : Fin k0_t1_loop.trips) : Fin 3 → Nat :=
  let c0_i32_1 : BitVec 32 := 0#32
  let c1_i32 : BitVec 32 := 1#32
  let arg7 : BitVec 32 := Scf.iv c0_i32_1 c1_i32 k0_t1
  let v13 : Index := Scalar.indexCast arg7
  let c0_6 : Index := 0#32
  let c0_7 : Index := 0#32
  ![v13.toNat, 0, 0]
def k0_off3 (k0_t1 : Fin k0_t1_loop.trips) : Fin 3 → Nat :=
  let c0_i32_1 : BitVec 32 := 0#32
  let c1_i32 : BitVec 32 := 1#32
  let arg7 : BitVec 32 := Scf.iv c0_i32_1 c1_i32 k0_t1
  let v37 : Index := Scalar.indexCast arg7
  let c0_13 : Index := 0#32
  let c0_14 : Index := 0#32
  ![v37.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x8192x2_S256x2x8192_0_2_1 : S256x8192x2.Transposes [0, 2, 1] S256x2x8192
  pads_S256x16383_S256x16384_000_010 : S256x16383.Pads (![0, 0] : Fin 2 → Nat) ![0, 1] ![0, 0] S256x16384
  h_S_ : 0 < S_.numel
  shapeCasts_S256x16384_S256x1x16384 : S256x16384.ShapeCasts S256x1x16384
  inb_S16x1x1_S16x1x1_0_0_0 : ∀ a, (![0, 0, 0] : Fin 3 → Nat) a + S16x1x1.size a ≤ S16x1x1.size a
  h_S16x1x1 : 0 < S16x1x1.numel
  iota_S8192x256_d0_w32 : S8192x256.Iotas .tc 32 [0]
  h_S1x2x8192 : 0 < S1x2x8192.numel
  shapeCasts_S1x2x8192_S2x8192 : S1x2x8192.ShapeCasts S2x8192
  bitsLt_bf16_f32 : FTy.bits .bf16 < FTy.bits .f32
  h_S1x1x256 : 0 < S1x1x256.numel
  shapeCasts_S1x1x256_S1x256 : S1x1x256.ShapeCasts S1x256
  broadcasts_S1x256_S8192x256 : S1x256.Broadcasts S8192x256
  natLt_1_32 : 1 < 32
  reduces_S2x256_S256 : S2x256.Reduces [0] S256
  shapeCasts_S256_S1x256 : S256.ShapeCasts S1x256
  reduces_S1x256_S1 : S1x256.Reduces [1] S1
  shapeCasts_S1_S1x1 : S1.ShapeCasts S1x1
  h_S1x1x1 : 0 < S1x1x1.numel
  shapeCasts_S1x1x1_S1x1 : S1x1x1.ShapeCasts S1x1
  shapeCasts_S1x1_S1x1x1 : S1x1.ShapeCasts S1x1x1
  reducesTo_S256x1x1_S_d0_1_2 : S256x1x1.ReducesTo [0, 1, 2] S_
  dot_S2x8192_S8192x256_S2x256_1_0_0_1_n_n_wf : DotDims.WF S2x8192 S8192x256 S2x256 [1] [0] [0] [1] [] []
  hrank0 : 0 < grid0.rank
  k0_t1_ok : k0_t1_loop.OK
  k0_off1_inb : ∀ k0_t1 : Fin k0_t1_loop.trips, ∀ a, (k0_off1 k0_t1) a + S1x2x8192.size a ≤ S16x2x8192.size a
  k0_off2_inb : ∀ k0_t1 : Fin k0_t1_loop.trips, ∀ a, (k0_off2 k0_t1) a + S1x1x256.size a ≤ S16x1x256.size a
  k0_off3_inb : ∀ k0_t1 : Fin k0_t1_loop.trips, ∀ a, (k0_off3 k0_t1) a + S1x1x1.size a ≤ S16x1x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2x8192.size a ≤ S256x2x8192.size a
  hwx0_0 : ∀ i : grid0.Coords, EltTy.bits .f32 = 32 ∨ (Rect.block (s := S256x2x8192) S16x2x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2x8192.size a ≤ S256x2x8192.size a
  hwx0_1 : ∀ i : grid0.Coords, EltTy.bits .f32 = 32 ∨ (Rect.block (s := S256x2x8192) S16x2x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x256.size a ≤ S256x1x16384.size a
  hwx0_2 : ∀ i : grid0.Coords, EltTy.bits .i32 = 32 ∨ (Rect.block (s := S256x1x16384) S16x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x256.size a ≤ S256x1x16384.size a
  hwx0_3 : ∀ i : grid0.Coords, EltTy.bits .i32 = 32 ∨ (Rect.block (s := S256x1x16384) S16x1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x1.size a ≤ S256x1x1.size a
  hwx0_4 : ∀ i : grid0.Coords, EltTy.bits .f32 = 32 ∨ (Rect.block (s := S256x1x1) S16x1x1.size (cc0_transform_4 i) (hinb0_4 i)).WholeWords (EltTy.packing .f32)

variable [Facts₀]

def dot_S2x8192_S8192x256_S2x256_1_0_0_1_n_n : DotDims S2x8192 S8192x256 S2x256 where
  lhsContracting := [1]
  rhsContracting := [0]
  lhsNonContracting := [0]
  rhsNonContracting := [1]
  lhsBatch := []
  rhsBatch := []
  wf := dot_S2x8192_S8192x256_S2x256_1_0_0_1_n_n_wf

abbrev win0_0 : Pipeline.Window sig grid0 :=
  Pipeline.Window.ofSpec (Memref.whole main_v0) S16x2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x2x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x8192x2 : Shape := ⟨3, ![256, 8192, 2]⟩
abbrev S256x16383 : Shape := ⟨2, ![256, 16383]⟩
abbrev S256x16383x1 : Shape := ⟨3, ![256, 16383, 1]⟩
abbrev S_ : Shape := ⟨0, ![]⟩
abbrev S1 : Shape := ⟨1, ![1]⟩
abbrev S1x1x1 : Shape := ⟨3, ![1, 1, 1]⟩
abbrev S256x16383x2 : Shape := ⟨3, ![256, 16383, 2]⟩

abbrev nBuf : Space → Nat
  | .hbm => 56
  | .vmem => 0
  | .smem => 0
  | _ => 0

abbrev bufTy : (tb : Table) → Fin (tcTables nBuf tb) → BufTy
  | .hbm, ⟨0, _⟩ => ⟨S256x8192x2, .f32⟩
  | .hbm, ⟨1, _⟩ => ⟨S256x8192x2, .f32⟩
  | .hbm, ⟨2, _⟩ => ⟨S256x16383, .i32⟩
  | .hbm, ⟨3, _⟩ => ⟨S256x16383, .i32⟩
  | .hbm, ⟨4, _⟩ => ⟨S256x16383x1, .i32⟩
  | .hbm, ⟨5, _⟩ => ⟨S_, .i32⟩
  | .hbm, ⟨6, _⟩ => ⟨S256x16383x1, .i32⟩
  | .hbm, ⟨7, _⟩ => ⟨S256x16383x1, .i1⟩
  | .hbm, ⟨8, _⟩ => ⟨S_, .i32⟩
  | .hbm, ⟨9, _⟩ => ⟨S256x16383x1, .i32⟩
  | .hbm, ⟨10, _⟩ => ⟨S256x16383x1, .i32⟩
  | .hbm, ⟨11, _⟩ => ⟨S256x16383x1, .i32⟩
  | .hbm, ⟨12, _⟩ => ⟨S1, .i32⟩
  | .hbm, ⟨13, _⟩ => ⟨S_, .i32⟩
  | .hbm, ⟨14, _⟩ => ⟨S256x16383x1, .i32⟩
  | .hbm, ⟨15, _⟩ => ⟨S256x16383x1, .i1⟩
  | .hbm, ⟨16, _⟩ => ⟨S1x1x1, .i32⟩
  | .hbm, ⟨17, _⟩ => ⟨S256x16383x1, .i32⟩
  | .hbm, ⟨18, _⟩ => ⟨S256x16383x1, .i1⟩
  | .hbm, ⟨19, _⟩ => ⟨S256x16383x1, .i1⟩
  | .hbm, ⟨20, _⟩ => ⟨S_, .i1⟩
  | .hbm, ⟨21, _⟩ => ⟨S256x16383, .i1⟩
  | .hbm, ⟨22, _⟩ => ⟨S256x16383x2, .f32⟩
  | .hbm, ⟨23, _⟩ => ⟨S256x16383x2, .i1⟩
  | .hbm, ⟨24, _⟩ => ⟨S_, .f32⟩
  | .hbm, ⟨25, _⟩ => ⟨S256x16383x2, .f32⟩
  | .hbm, ⟨26, _⟩ => ⟨S256x16383x2, .f32⟩
  | .hbm, ⟨27, _⟩ => ⟨S256x16383x1, .i32⟩
  | .hbm, ⟨28, _⟩ => ⟨S_, .i32⟩
  | .hbm, ⟨29, _⟩ => ⟨S256x16383x1, .i32⟩
  | .hbm, ⟨30, _⟩ => ⟨S256x16383x1, .i1⟩
  | .hbm, ⟨31, _⟩ => ⟨S_, .i32⟩
  | .hbm, ⟨32, _⟩ => ⟨S256x16383x1, .i32⟩
  | .hbm, ⟨33, _⟩ => ⟨S256x16383x1, .i32⟩
  | .hbm, ⟨34, _⟩ => ⟨S256x16383x1, .i32⟩
  | .hbm, ⟨35, _⟩ => ⟨S1, .i32⟩
  | .hbm, ⟨36, _⟩ => ⟨S_, .i32⟩
  | .hbm, ⟨37, _⟩ => ⟨S256x16383x1, .i32⟩
  | .hbm, ⟨38, _⟩ => ⟨S256x16383x1, .i1⟩
  | .hbm, ⟨39, _⟩ => ⟨S1x1x1, .i32⟩
  | .hbm, ⟨40, _⟩ => ⟨S256x16383x1, .i32⟩
  | .hbm, ⟨41, _⟩ => ⟨S256x16383x1, .i1⟩
  | .hbm, ⟨42, _⟩ => ⟨S256x16383x1, .i1⟩
  | .hbm, ⟨43, _⟩ => ⟨S_, .i1⟩
  | .hbm, ⟨44, _⟩ => ⟨S256x16383, .i1⟩
  | .hbm, ⟨45, _⟩ => ⟨S256x16383x2, .f32⟩
  | .hbm, ⟨46, _⟩ => ⟨S256x16383x2, .i1⟩
  | .hbm, ⟨47, _⟩ => ⟨S_, .f32⟩
  | .hbm, ⟨48, _⟩ => ⟨S256x16383x2, .f32⟩
  | .hbm, ⟨49, _⟩ => ⟨S256x16383x2, .f32⟩
  | .hbm, ⟨50, _⟩ => ⟨S256x16383x2, .f32⟩
  | .hbm, ⟨51, _⟩ => ⟨S256x16383x2, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S256x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_cst : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩

abbrev nD : Nat := 1
abbrev τ : Topo := Topo.v7x

variable {F : FTy → Type} [FloatOps F]

class Facts₀ : Prop where
  bcast_S256x16383_S256x16383x1_0_1 : S256x16383.BroadcastsInDim S256x16383x1 (![0, 1] : Fin 2 → Fin S256x16383x1.rank)
  bcast_S_S256x16383x1 : S_.BroadcastsInDim S256x16383x1 (![] : Fin 0 → Fin S256x16383x1.rank)
  bcast_S1_S1x1x1_2 : S1.BroadcastsInDim S1x1x1 (![2] : Fin 1 → Fin S1x1x1.rank)
  bcast_S1x1x1_S256x16383x1_0_1_2 : S1x1x1.BroadcastsInDim S256x16383x1 (![0, 1, 2] : Fin 3 → Fin S256x16383x1.rank)
  reducesTo_S256x16383x1_S256x16383_d2 : S256x16383x1.ReducesTo [2] S256x16383
  h_S_ : 0 < S_.numel
  bcast_S256x16383_S256x16383x2_0_1 : S256x16383.BroadcastsInDim S256x16383x2 (![0, 1] : Fin 2 → Fin S256x16383x2.rank)
  bcast_S_S256x16383x2 : S_.BroadcastsInDim S256x16383x2 (![] : Fin 0 → Fin S256x16383x2.rank)
  reducesTo_S256x16383x2_S_d0_1_2 : S256x16383x2.ReducesTo [0, 1, 2] S_
  gather_S256x8192x2_S256x16383x1_S256x16383x2_2_1_0_0_1_2_112_wf : GatherDims.WF S256x8192x2 S256x16383x1 S256x16383x2 [2] [1] [0] [1] [0] 2 ![1, 1, 2]

variable [Facts₀]

def gather_S256x8192x2_S256x16383x1_S256x16383x2_2_1_0_0_1_2_112 : GatherDims S256x8192x2 S256x16383x1 S256x16383x2 where
  offsetDims := [2]
  collapsedSliceDims := [1]
  operandBatchingDims := [0]
  startIndicesBatchingDims := [0]
  startIndexMap := [1]
  indexVectorDim := 2
  sliceSizes := ![1, 1, 2]
  wf := gather_S256x8192x2_S256x16383x1_S256x16383x2_2_1_0_0_1_2_112_wf

class Facts : Prop extends Facts₀ where

variable [Facts]
-- ==== Proof.KBodyRun.lean ====
/-
  The kernel body run at one grid point, for any float family.

  The body zeroes its [16,1,1] output block when the second grid coordinate is 0, then for each of the block's 16
  batches loads that batch's rows of the four input blocks, computes the batch's partial loss from them, and adds it
  to the batch's entry of the output block. Two cases of the conditional: taken (the block is zeroed first, whatever
  it held) and not taken (the block holds the running sums of the earlier points). In each the run is stated on whole
  staging memrefs and returns the output's memref with a list of stores written into it; that list is the witness the
  symbolic run finds, and the counted loop is crossed by its generated invariant (one store per trip).
-/
import proofs.«417695_j40845138985586_2_alg».proof.Proof.Gen.Kernel.Skeleton
import proofs.«417695_j40845138985586_2_alg».proof.Proof.Gen.Kernel.Loops
import proofs.«417695_j40845138985586_2_alg».proof.Proof.Gen.Kernel.Launch
import proofs.«417695_j40845138985586_2_alg».proof.Proof.Gen.Kernel.Points
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero. -/
abbrev cond0 (i : grid0.Coords) : Prop :=
  (Scalar.cmpi .ne (Scalar.extui (Scalar.cmpi .eq (BitVec.ofNat 32 (i 1).val) 0#32)) 0#32) = 1#1

/-- Over the grid of 16 × 64 points it holds exactly at the points that are multiples of 64. -/
theorem hcond0 : ∀ t : Fin cfg0.N, cond0 (grid0.coords t) ↔ t.val % 64 = 0 :=
  (by decide +kernel : ∀ t : Fin grid0.N, cond0 (grid0.coords t) ↔ t.val % 64 = 0)

/-! ## One batch's rows of the blocks -/

/-- Row `g` of a [16, 2, 8192] block, as the [1, 2, 8192] vector a load of that row yields. -/
def rowF (x : Vec F S16x2x8192 .f32) (g : Fin 16) : Vec F S1x2x8192 .f32 :=
  fun y => x (fun a => match a with | ⟨0, _⟩ => ⟨g.val, g.isLt⟩ | ⟨1, _⟩ => ⟨(y 1).val, (y 1).isLt⟩ | ⟨2, _⟩ => ⟨(y 2).val, (y 2).isLt⟩)

/-- Row `g` of a [16, 1, 256] block of index words. -/
def rowI (x : Vec F S16x1x256 .i32) (g : Fin 16) : Vec F S1x1x256 .i32 :=
  fun y => x (fun a => match a with | ⟨0, _⟩ => ⟨g.val, g.isLt⟩ | ⟨1, _⟩ => ⟨(y 1).val, (y 1).isLt⟩ | ⟨2, _⟩ => ⟨(y 2).val, (y 2).isLt⟩)

/-- Entry `g` of the [16, 1, 1] output block. -/
def rowO (d : Vec F S16x1x1 .f32) (g : Fin 16) : Vec F S1x1x1 .f32 :=
  fun y => d (fun a => match a with | ⟨0, _⟩ => ⟨g.val, g.isLt⟩ | ⟨1, _⟩ => ⟨(y 1).val, (y 1).isLt⟩ | ⟨2, _⟩ => ⟨(y 2).val, (y 2).isLt⟩)

/-- The one index of a [1, 1, 1] vector. -/
abbrev i000 : S1x1x1.Idx := fun a => match a with | ⟨0, _⟩ => ⟨0, Nat.zero_lt_one⟩ | ⟨1, _⟩ => ⟨0, Nat.zero_lt_one⟩ | ⟨2, _⟩ => ⟨0, Nat.zero_lt_one⟩

/-- What one grid point's body leaves in the output block, given the block's contents `d` when the loop is entered:
    entry `g` is the loop body's stored value computed from row `g` of each input block and entry `g` of `d`. -/
def stepOut (x0 : Vec F S16x2x8192 .f32) (x1 : Vec F S16x2x8192 .f32) (x2 : Vec F S16x1x256 .i32) (x3 : Vec F S16x1x256 .i32) (d : Vec F S16x1x1 .f32) : Vec F S16x1x1 .f32 :=
  fun y => k0_pay2 (rowF x0 ⟨(y 0).val, (y 0).isLt⟩) (rowF x1 ⟨(y 0).val, (y 0).isLt⟩) (rowI x2 ⟨(y 0).val, (y 0).isLt⟩) (rowI x3 ⟨(y 0).val, (y 0).isLt⟩) (rowO d ⟨(y 0).val, (y 0).isLt⟩) i000

/-! ## The two runs -/

set_option maxHeartbeats 1000000 in
/-- The condition taken: the output's memref, at any contents, comes back with the found stores written. -/
noncomputable def runA (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : cond0 i)
    (x0 : Vec F S16x2x8192 .f32) (x1 : Vec F S16x2x8192 .f32) (x2 : Vec F S16x1x256 .i32) (x3 : Vec F S16x1x256 .i32) :
    { L : List (View.Piece (Elt F) S16x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__dtw_kernel i arg2 harg2 arg3 harg3 arg4 harg4 arg5 harg5 arg6 harg6) K } := by
  refine ⟨?_, fun E K => ?run⟩
  case run =>
    simp only [cc0__dtw_kernel_eq_skeleton]; unfold cc0__dtw_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists arg6.view.junk; iexact H4

set_option maxHeartbeats 1000000 in
/-- The condition not taken: the output's memref holds the running contents `xo` and comes back with the found stores written. -/
noncomputable def runB (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : ¬cond0 i)
    (x0 : Vec F S16x2x8192 .f32) (x1 : Vec F S16x2x8192 .f32) (x2 : Vec F S16x1x256 .i32) (x3 : Vec F S16x1x256 .i32) (xo : Vec F S16x1x1 .f32) :
    { L : List (View.Piece (Elt F) S16x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__dtw_kernel i arg2 harg2 arg3 harg3 arg4 harg4 arg5 harg5 arg6 harg6) K } := by
  refine ⟨?_, fun E K => ?run⟩
  case run =>
    simp only [cc0__dtw_kernel_eq_skeleton]; unfold cc0__dtw_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists (harg6.unread xo); iexact H4

/-! ## What the found stores leave

The loop's trip `k` stores ONE piece: at row `k` of the output block, the stored value computed from row `k` of each
input block and from the block's own entry `k` read back. Rows are written in order and trip `k` reads a row no
earlier trip wrote, so after `n` trips the rows below `n` hold the step over the contents the loop started from, and
the others are untouched. -/

/-- The loop has 16 trips. -/
theorem trips_eq : k0_t1_loop.trips = 16 := by decide

/-- The trip's number as a batch row. -/
abbrev tripRow (k : Fin k0_t1_loop.trips) : Fin 16 := ⟨k.val, lt_of_lt_of_eq k.isLt trips_eq⟩

/-- The one piece trip `k` stores, given the raw contents `f` it finds in the output's buffer. -/
theorem tripL_eq (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole)
    (X2 : BufTy.Contents (Elt F) arg2.view.ty) (X3 : BufTy.Contents (Elt F) arg3.view.ty) (X4 : BufTy.Contents (Elt F) arg4.view.ty) (X5 : BufTy.Contents (Elt F) arg5.view.ty)
    (k : Fin k0_t1_loop.trips) (f : BufTy.Contents (Elt F) arg6.view.ty) :
    tripL_k0_t1 (F := F) Variants.none c none i arg2 harg2 arg3 harg3 arg4 harg4 arg5 harg5 arg6 harg6 X2 X3 X4 X5 k f
      = [(⟨Rect.unit (s := S16x1x1) (k0_off3 k) S1x1x1.size (k0_off3_inb k),
          k0_pay2 (View.readAt (Elt F) arg2.view (Rect.unit (s := S16x2x8192) (k0_off1 k) S1x2x8192.size (k0_off1_inb k)).toLoadRect X2)
            (View.readAt (Elt F) arg3.view (Rect.unit (s := S16x2x8192) (k0_off1 k) S1x2x8192.size (k0_off1_inb k)).toLoadRect X3)
            (View.readAt (Elt F) arg4.view (Rect.unit (s := S16x1x256) (k0_off2 k) S1x1x256.size (k0_off2_inb k)).toLoadRect X4)
            (View.readAt (Elt F) arg5.view (Rect.unit (s := S16x1x256) (k0_off2 k) S1x1x256.size (k0_off2_inb k)).toLoadRect X5)
            (View.readAt (Elt F) arg6.view (Rect.unit (s := S16x1x1) (k0_off3 k) S1x1x1.size (k0_off3_inb k)).toLoadRect f)⟩ : View.Piece (Elt F) S16x1x1 .f32)] := by
  unfold tripL_k0_t1 trip_k0_t1
  rfl

/-- A load of row `k` of a float block is that row. -/
theorem ld_rowF (x : Vec F S16x2x8192 .f32) (k : Fin k0_t1_loop.trips) :
    View.ld x (Rect.unit (s := S16x2x8192) (k0_off1 k) S1x2x8192.size (k0_off1_inb k)) = rowF x (tripRow k) := by
  funext y
  show x ((Rect.unit (s := S16x2x8192) (k0_off1 k) S1x2x8192.size (k0_off1_inb k)).emb y) = _
  unfold rowF
  refine congrArg x (funext fun a => Fin.ext ?_)
  rw [Rect.emb_apply]
  match a with
  | ⟨0, h0⟩ =>
    have e : k0_off1 k ⟨0, h0⟩ = k.val := (congrFun (k0_off1_eq k) ⟨0, h0⟩).trans rfl
    have h : (y ⟨0, h0⟩).val < 1 := (y ⟨0, h0⟩).isLt
    show k0_off1 k ⟨0, h0⟩ + 1 * (y ⟨0, h0⟩).val = k.val
    omega
  | ⟨1, h1⟩ =>
    have e : k0_off1 k ⟨1, h1⟩ = 0 := (congrFun (k0_off1_eq k) ⟨1, h1⟩).trans rfl
    show k0_off1 k ⟨1, h1⟩ + 1 * (y ⟨1, h1⟩).val = (y ⟨1, h1⟩).val
    omega
  | ⟨2, h2⟩ =>
    have e : k0_off1 k ⟨2, h2⟩ = 0 := (congrFun (k0_off1_eq k) ⟨2, h2⟩).trans rfl
    show k0_off1 k ⟨2, h2⟩ + 1 * (y ⟨2, h2⟩).val = (y ⟨2, h2⟩).val
    omega

/-- A load of row `k` of an index block is that row. -/
theorem ld_rowI (x : Vec F S16x1x256 .i32) (k : Fin k0_t1_loop.trips) :
    View.ld x (Rect.unit (s := S16x1x256) (k0_off2 k) S1x1x256.size (k0_off2_inb k)) = rowI x (tripRow k) := by
  funext y
  show x ((Rect.unit (s := S16x1x256) (k0_off2 k) S1x1x256.size (k0_off2_inb k)).emb y) = _
  unfold rowI
  refine congrArg x (funext fun a => Fin.ext ?_)
  rw [Rect.emb_apply]
  match a with
  | ⟨0, h0⟩ =>
    have e : k0_off2 k ⟨0, h0⟩ = k.val := (congrFun (k0_off2_eq k) ⟨0, h0⟩).trans rfl
    have h : (y ⟨0, h0⟩).val < 1 := (y ⟨0, h0⟩).isLt
    show k0_off2 k ⟨0, h0⟩ + 1 * (y ⟨0, h0⟩).val = k.val
    omega
  | ⟨1, h1⟩ =>
    have e : k0_off2 k ⟨1, h1⟩ = 0 := (congrFun (k0_off2_eq k) ⟨1, h1⟩).trans rfl
    show k0_off2 k ⟨1, h1⟩ + 1 * (y ⟨1, h1⟩).val = (y ⟨1, h1⟩).val
    omega
  | ⟨2, h2⟩ =>
    have e : k0_off2 k ⟨2, h2⟩ = 0 := (congrFun (k0_off2_eq k) ⟨2, h2⟩).trans rfl
    show k0_off2 k ⟨2, h2⟩ + 1 * (y ⟨2, h2⟩).val = (y ⟨2, h2⟩).val
    omega

/-- A load of entry `k` of the output block is that entry. -/
theorem ld_rowO (d : Vec F S16x1x1 .f32) (k : Fin k0_t1_loop.trips) :
    View.ld d (Rect.unit (s := S16x1x1) (k0_off3 k) S1x1x1.size (k0_off3_inb k)) = rowO d (tripRow k) := by
  funext y
  show d ((Rect.unit (s := S16x1x1) (k0_off3 k) S1x1x1.size (k0_off3_inb k)).emb y) = _
  unfold rowO
  refine congrArg d (funext fun a => Fin.ext ?_)
  rw [Rect.emb_apply]
  match a with
  | ⟨0, h0⟩ =>
    have e : k0_off3 k ⟨0, h0⟩ = k.val := (congrFun (k0_off3_eq k) ⟨0, h0⟩).trans rfl
    have h : (y ⟨0, h0⟩).val < 1 := (y ⟨0, h0⟩).isLt
    show k0_off3 k ⟨0, h0⟩ + 1 * (y ⟨0, h0⟩).val = k.val
    omega
  | ⟨1, h1⟩ =>
    have e : k0_off3 k ⟨1, h1⟩ = 0 := (congrFun (k0_off3_eq k) ⟨1, h1⟩).trans rfl
    show k0_off3 k ⟨1, h1⟩ + 1 * (y ⟨1, h1⟩).val = (y ⟨1, h1⟩).val
    omega
  | ⟨2, h2⟩ =>
    have e : k0_off3 k ⟨2, h2⟩ = 0 := (congrFun (k0_off3_eq k) ⟨2, h2⟩).trans rfl
    show k0_off3 k ⟨2, h2⟩ + 1 * (y ⟨2, h2⟩).val = (y ⟨2, h2⟩).val
    omega

/-- After the first `n` trips over any base contents `f`, with the loop started from `G`: a row below `n` holds the step
    over what `G` reads, every other row what `f` reads. -/
theorem read_pb (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (x0 : Vec F S16x2x8192 .f32) (x1 : Vec F S16x2x8192 .f32) (x2 : Vec F S16x1x256 .i32) (x3 : Vec F S16x1x256 .i32) (G : BufTy.Contents (Elt F) arg6.view.ty) :
    ∀ (n : ℕ), n ≤ 16 → ∀ (f : BufTy.Contents (Elt F) arg6.view.ty) (y : S16x1x1.Idx),
      arg6.view.read (Elt F) (arg6.view.writes (Elt F) f (pb_k0_t1 (F := F) Variants.none c none i arg2 harg2 arg3 harg3 arg4 harg4 arg5 harg5 arg6 harg6 (harg2.unread x0) (harg3.unread x1) (harg4.unread x2) (harg5.unread x3) G n)) y
        = if (y 0).val < n then stepOut x0 x1 x2 x3 (arg6.view.read (Elt F) G) y else arg6.view.read (Elt F) f y := by
  intro n
  induction n with
  | zero =>
    intro _ f y
    rw [if_neg (Nat.not_lt_zero _)]
    rfl
  | succ n ih =>
    intro hn f y
    have hn' : n < k0_t1_loop.trips := by rw [trips_eq]; omega
    let k : Fin k0_t1_loop.trips := ⟨n, hn'⟩
    have ih' := ih (by omega)
    have hk : k.val = n := rfl
    rw [show n + 1 = k.val + 1 from rfl, pb_k0_t1_succ, tripL_eq, List.cons_append, List.nil_append]
    by_cases hy : (y 0).val = n
    · rw [if_pos (by omega)]
      have hy1 : (y 1).val < 1 := (y 1).isLt
      have hy2 : (y 2).val < 1 := (y 2).isLt
      have hx : ∀ a : Fin S16x1x1.rank, (y a).val = (![k.val, 0, 0] : Fin 3 → ℕ) a + ((i000 : S1x1x1.Idx) a).val := fun a => by
        match a with
        | ⟨0, h0⟩ => show (y 0).val = k.val + 0; omega
        | ⟨1, h1⟩ => show (y 1).val = 0 + 0; omega
        | ⟨2, h2⟩ => show (y 2).val = 0 + 0; omega
      rw [View.read_writes_cons_unit_of_mem arg6.view f (k0_off3_inb k) _ _ y i000 (k0_off3_eq k) hx]
      have hg : (⟨(y 0).val, (y 0).isLt⟩ : Fin 16) = tripRow k := Fin.ext hy
      unfold stepOut
      rw [hg]
      have e2 : View.readAt (Elt F) arg2.view (Rect.unit (s := S16x2x8192) (k0_off1 k) S1x2x8192.size (k0_off1_inb k)).toLoadRect (harg2.unread x0) = rowF x0 (tripRow k) := by
        rw [View.readAt_eq_ld, harg2.read_unread]; exact ld_rowF x0 k
      have e3 : View.readAt (Elt F) arg3.view (Rect.unit (s := S16x2x8192) (k0_off1 k) S1x2x8192.size (k0_off1_inb k)).toLoadRect (harg3.unread x1) = rowF x1 (tripRow k) := by
        rw [View.readAt_eq_ld, harg3.read_unread]; exact ld_rowF x1 k
      have e4 : View.readAt (Elt F) arg4.view (Rect.unit (s := S16x1x256) (k0_off2 k) S1x1x256.size (k0_off2_inb k)).toLoadRect (harg4.unread x2) = rowI x2 (tripRow k) := by
        rw [View.readAt_eq_ld, harg4.read_unread]; exact ld_rowI x2 k
      have e5 : View.readAt (Elt F) arg5.view (Rect.unit (s := S16x1x256) (k0_off2 k) S1x1x256.size (k0_off2_inb k)).toLoadRect (harg5.unread x3) = rowI x3 (tripRow k) := by
        rw [View.readAt_eq_ld, harg5.read_unread]; exact ld_rowI x3 k
      have e6 : View.readAt (Elt F) arg6.view (Rect.unit (s := S16x1x1) (k0_off3 k) S1x1x1.size (k0_off3_inb k)).toLoadRect
            (arg6.view.writes (Elt F) G (pb_k0_t1 (F := F) Variants.none c none i arg2 harg2 arg3 harg3 arg4 harg4 arg5 harg5 arg6 harg6 (harg2.unread x0) (harg3.unread x1) (harg4.unread x2) (harg5.unread x3) G k.val))
          = rowO (arg6.view.read (Elt F) G) (tripRow k) := by
        rw [View.readAt_eq_ld, ← ld_rowO]
        funext x
        show arg6.view.read (Elt F) _ ((Rect.unit (s := S16x1x1) (k0_off3 k) S1x1x1.size (k0_off3_inb k)).emb x) = arg6.view.read (Elt F) G ((Rect.unit (s := S16x1x1) (k0_off3 k) S1x1x1.size (k0_off3_inb k)).emb x)
        rw [ih' G, if_neg]
        rw [Rect.emb_apply]
        have e0 : k0_off3 k 0 = k.val := (congrFun (k0_off3_eq k) 0).trans rfl
        show ¬ k0_off3 k 0 + 1 * (x 0).val < n
        omega
      rw [e2, e3, e4, e5, e6]
    · rw [View.read_writes_cons_unit_of_not_mem arg6.view f (k0_off3_inb k) _ _ y (k0_off3_eq k) 0 (by
        show (y 0).val < k.val ∨ k.val + 1 ≤ (y 0).val
        omega)]
      rw [ih' f y]
      by_cases h1 : (y 0).val < n
      · rw [if_pos h1, if_pos (by omega)]
      · rw [if_neg h1, if_neg (by omega)]

/-- The loop's trip count as the run spells it. -/
theorem trips_lit : Scf.trips (0#32) (Scalar.addi 0#32 16#32) 1#32 = 16 := by decide

/-- Case A: whatever the memref held, after the found stores it reads the step over the zero block. -/
theorem read_runA (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : cond0 i)
    (x0 : Vec F S16x2x8192 .f32) (x1 : Vec F S16x2x8192 .f32) (x2 : Vec F S16x1x256 .i32) (x3 : Vec F S16x1x256 .i32) (f : arg6.view.ty.Contents (Elt F)) :
    arg6.view.read (Elt F) (arg6.view.writes (Elt F) f (runA c i arg2 harg2 arg3 harg3 arg4 harg4 arg5 harg5 arg6 harg6 hc0 x0 x1 x2 x3).1)
      = stepOut x0 x1 x2 x3 (k0_pay1 (F := F)) := by
  funext y
  unfold runA
  dsimp only
  rw [trips_lit, View.writes_append, read_pb c i arg2 harg2 arg3 harg3 arg4 harg4 arg5 harg5 arg6 harg6 x0 x1 x2 x3 _ 16 (le_refl _) _ y,
    if_pos (show (y 0).val < 16 from (y 0).isLt)]
  refine congrArg (fun d => stepOut x0 x1 x2 x3 d y) ?_
  sl_unfold_words
  funext z
  refine View.read_writes_cons_unit_of_mem arg6.view _ _ _ [] z z rfl (fun a => ?_)
  match a with
  | ⟨0, h0⟩ => show (z ⟨0, h0⟩).val = 0 + (z ⟨0, h0⟩).val; omega
  | ⟨1, h1⟩ => show (z ⟨1, h1⟩).val = 0 + (z ⟨1, h1⟩).val; omega
  | ⟨2, h2⟩ => show (z ⟨2, h2⟩).val = 0 + (z ⟨2, h2⟩).val; omega

/-- Case B: whatever the memref held, after the found stores it reads the step over the running contents. -/
theorem read_runB (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : ¬cond0 i)
    (x0 : Vec F S16x2x8192 .f32) (x1 : Vec F S16x2x8192 .f32) (x2 : Vec F S16x1x256 .i32) (x3 : Vec F S16x1x256 .i32) (xo : Vec F S16x1x1 .f32) (f : arg6.view.ty.Contents (Elt F)) :
    arg6.view.read (Elt F) (arg6.view.writes (Elt F) f (runB c i arg2 harg2 arg3 harg3 arg4 harg4 arg5 harg5 arg6 harg6 hc0 x0 x1 x2 x3 xo).1)
      = stepOut x0 x1 x2 x3 xo := by
  funext y
  unfold runB
  dsimp only
  rw [trips_lit, read_pb c i arg2 harg2 arg3 harg3 arg4 harg4 arg5 harg5 arg6 harg6 x0 x1 x2 x3 _ 16 (le_refl _) _ y,
    if_pos (show (y 0).val < 16 from (y 0).isLt), harg6.read_unread]

end Cert.Kernel.Body

end
-- ==== Proof.KBodyData.lean ====
/-
  The pipeline's proof data, the body obligation, and the run of the whole program to the frame's post, for any
  float family.

  The output window's staging block is an accumulator across the 64 points of one batch group: at the group's first
  point (the points that are multiples of 64) the body zeroes it and adds the point's partial sums; at every other
  point it adds to what the point before left. `outsAt` states that by recursion on the point. The input windows'
  blocks are left in place. The window is written back at the group's last point only, so between two points of a
  group the block the body finds is the one it left.
-/
import proofs.«417695_j40845138985586_2_alg».proof.Proof.KBodyRun
import proofs.«417695_j40845138985586_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`, and that it is a whole buffer. -/
abbrev ms0 (t : Fin cfg0.N) : Memref sig .tc .vmem S16x2x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x2x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x1x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1x1 .f32 := win0_4.stage (cfg0.slots t 4)
abbrev hs4 (t : Fin cfg0.N) : (ms4 t).IsWhole := hstage0_4 ((cfg0.slots t 4).cast nbuf0_4)

/-! ## What the output block holds after each point -/

/-- The output window's staging block after the body at position `n`: at a multiple of 64 the step over the zero
    block, elsewhere the step over what position `n - 1` left. -/
def outsAt (c : Dev nD) : (n : ℕ) → n < cfg0.N → Vec F S16x1x1 .f32
  | 0, hn => stepOut (iblk m c 0 ⟨0, hn⟩) (iblk m c 1 ⟨0, hn⟩) (iblk m c 2 ⟨0, hn⟩) (iblk m c 3 ⟨0, hn⟩) (k0_pay1 (F := F))
  | n + 1, hn =>
    if h0 : (n + 1) % 64 = 0 then
      stepOut (iblk m c 0 ⟨n + 1, hn⟩) (iblk m c 1 ⟨n + 1, hn⟩) (iblk m c 2 ⟨n + 1, hn⟩) (iblk m c 3 ⟨n + 1, hn⟩) (k0_pay1 (F := F))
    else
      stepOut (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- At a group's first point: the step over the zero block. -/
theorem outsAt_A (c : Dev nD) (t : Fin cfg0.N) (h0 : t.val % 64 = 0) :
    outsAt m c t.val t.isLt = stepOut (iblk m c 0 t) (iblk m c 1 t) (iblk m c 2 t) (iblk m c 3 t) (k0_pay1 (F := F)) := by
  obtain ⟨n, hn⟩ := t
  cases n with
  | zero => exact rfl
  | succ n => exact (dif_pos h0).trans rfl

/-- At any other point: the step over what the point before left. -/
theorem outsAt_B (c : Dev nD) (t : Fin cfg0.N) (h0 : ¬t.val % 64 = 0) :
    outsAt m c t.val t.isLt = stepOut (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of the one pipeline on core `c`: the arrays as the region finds them; after the body each input's
    buffer at its block and the output's at `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt) := by dsimp only [dats]

/-! ## What each staging block holds when the body is called -/

/-- Each input's current staging block holds its window's block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Inside a group the output's staging block holds what the body left at the point before: the point is not the
    first, the block is written back at a group's last point only, and the window is live and uncut. -/
theorem before4_B (c : Dev nD) (t : Fin cfg0.N) (h0 : ¬t.val % 64 = 0) (d) :
    (dats m 0 c).before 4 t d = outsAt m c (t.val - 1) (Nat.lt_of_le_of_lt (Nat.sub_le _ _) t.isLt) := by
  have hN : t.val < 1024 := lt_of_lt_of_eq t.isLt (show cfg0.N = 1024 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`: the invariant, nothing owed, and each window's staging block. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point. The inputs' staging blocks hold their windows' blocks. At a group's first point the
    condition holds and the body overwrites the output block whatever it held; at any other point the condition fails
    and the output block holds what the point before left, which the body steps. The invariant passes through unread
    and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 64 = 0
  · rw [outsAt_A m c t h0]
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond0 t).mpr h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_runA c _ _ _ _ _ _ _ _ _ _ _ _ _ _ _ _ _
  · rw [outsAt_B m c t h0]
    simp only [before4_B m c t h0]
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0 t).mp h))
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_runB c _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    say, and every other buffer at what the host lines after the region compute from the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame claim's post, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyRun.lean ====
/-
  The kernel body run at one grid point, for any float family.

  The body zeroes its [16,1,1] output block when the second grid coordinate is 0, then for each of the block's 16
  batches loads that batch's rows of the four input blocks, computes the batch's partial loss from them, and adds it
  to the batch's entry of the output block. Two cases of the conditional: taken (the block is zeroed first, whatever
  it held) and not taken (the block holds the running sums of the earlier points). In each the run is stated on whole
  staging memrefs and returns the output's memref with a list of stores written into it; that list is the witness the
  symbolic run finds, and the counted loop is crossed by its generated invariant (one store per trip).
-/
import proofs.«417695_j40845138985586_2_alg».proof.Proof.Gen.KernelIdeal.Skeleton
import proofs.«417695_j40845138985586_2_alg».proof.Proof.Gen.KernelIdeal.Loops
import proofs.«417695_j40845138985586_2_alg».proof.Proof.Gen.KernelIdeal.Launch
import proofs.«417695_j40845138985586_2_alg».proof.Proof.Gen.KernelIdeal.Points
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero. -/
abbrev cond0 (i : grid0.Coords) : Prop :=
  (Scalar.cmpi .ne (Scalar.extui (Scalar.cmpi .eq (BitVec.ofNat 32 (i 1).val) 0#32)) 0#32) = 1#1

/-- Over the grid of 16 × 64 points it holds exactly at the points that are multiples of 64. -/
theorem hcond0 : ∀ t : Fin cfg0.N, cond0 (grid0.coords t) ↔ t.val % 64 = 0 :=
  (by decide +kernel : ∀ t : Fin grid0.N, cond0 (grid0.coords t) ↔ t.val % 64 = 0)

/-! ## One batch's rows of the blocks -/

/-- Row `g` of a [16, 2, 8192] block, as the [1, 2, 8192] vector a load of that row yields. -/
def rowF (x : Vec F S16x2x8192 .f32) (g : Fin 16) : Vec F S1x2x8192 .f32 :=
  fun y => x (fun a => match a with | ⟨0, _⟩ => ⟨g.val, g.isLt⟩ | ⟨1, _⟩ => ⟨(y 1).val, (y 1).isLt⟩ | ⟨2, _⟩ => ⟨(y 2).val, (y 2).isLt⟩)

/-- Row `g` of a [16, 1, 256] block of index words. -/
def rowI (x : Vec F S16x1x256 .i32) (g : Fin 16) : Vec F S1x1x256 .i32 :=
  fun y => x (fun a => match a with | ⟨0, _⟩ => ⟨g.val, g.isLt⟩ | ⟨1, _⟩ => ⟨(y 1).val, (y 1).isLt⟩ | ⟨2, _⟩ => ⟨(y 2).val, (y 2).isLt⟩)

/-- Entry `g` of the [16, 1, 1] output block. -/
def rowO (d : Vec F S16x1x1 .f32) (g : Fin 16) : Vec F S1x1x1 .f32 :=
  fun y => d (fun a => match a with | ⟨0, _⟩ => ⟨g.val, g.isLt⟩ | ⟨1, _⟩ => ⟨(y 1).val, (y 1).isLt⟩ | ⟨2, _⟩ => ⟨(y 2).val, (y 2).isLt⟩)

/-- The one index of a [1, 1, 1] vector. -/
abbrev i000 : S1x1x1.Idx := fun a => match a with | ⟨0, _⟩ => ⟨0, Nat.zero_lt_one⟩ | ⟨1, _⟩ => ⟨0, Nat.zero_lt_one⟩ | ⟨2, _⟩ => ⟨0, Nat.zero_lt_one⟩

/-- What one grid point's body leaves in the output block, given the block's contents `d` when the loop is entered:
    entry `g` is the loop body's stored value computed from row `g` of each input block and entry `g` of `d`. -/
def stepOut (x0 : Vec F S16x2x8192 .f32) (x1 : Vec F S16x2x8192 .f32) (x2 : Vec F S16x1x256 .i32) (x3 : Vec F S16x1x256 .i32) (d : Vec F S16x1x1 .f32) : Vec F S16x1x1 .f32 :=
  fun y => k0_pay2 (rowF x0 ⟨(y 0).val, (y 0).isLt⟩) (rowF x1 ⟨(y 0).val, (y 0).isLt⟩) (rowI x2 ⟨(y 0).val, (y 0).isLt⟩) (rowI x3 ⟨(y 0).val, (y 0).isLt⟩) (rowO d ⟨(y 0).val, (y 0).isLt⟩) i000

/-! ## The two runs -/

set_option maxHeartbeats 1000000 in
/-- The condition taken: the output's memref, at any contents, comes back with the found stores written. -/
noncomputable def runA (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : cond0 i)
    (x0 : Vec F S16x2x8192 .f32) (x1 : Vec F S16x2x8192 .f32) (x2 : Vec F S16x1x256 .i32) (x3 : Vec F S16x1x256 .i32) :
    { L : List (View.Piece (Elt F) S16x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__dtw_kernel i arg2 harg2 arg3 harg3 arg4 harg4 arg5 harg5 arg6 harg6) K } := by
  refine ⟨?_, fun E K => ?run⟩
  case run =>
    simp only [cc0__dtw_kernel_eq_skeleton]; unfold cc0__dtw_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists arg6.view.junk; iexact H4

set_option maxHeartbeats 1000000 in
/-- The condition not taken: the output's memref holds the running contents `xo` and comes back with the found stores written. -/
noncomputable def runB (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : ¬cond0 i)
    (x0 : Vec F S16x2x8192 .f32) (x1 : Vec F S16x2x8192 .f32) (x2 : Vec F S16x1x256 .i32) (x3 : Vec F S16x1x256 .i32) (xo : Vec F S16x1x1 .f32) :
    { L : List (View.Piece (Elt F) S16x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc0__dtw_kernel i arg2 harg2 arg3 harg3 arg4 harg4 arg5 harg5 arg6 harg6) K } := by
  refine ⟨?_, fun E K => ?run⟩
  case run =>
    simp only [cc0__dtw_kernel_eq_skeleton]; unfold cc0__dtw_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists (harg6.unread xo); iexact H4

/-! ## What the found stores leave

The loop's trip `k` stores ONE piece: at row `k` of the output block, the stored value computed from row `k` of each
input block and from the block's own entry `k` read back. Rows are written in order and trip `k` reads a row no
earlier trip wrote, so after `n` trips the rows below `n` hold the step over the contents the loop started from, and
the others are untouched. -/

/-- The loop has 16 trips. -/
theorem trips_eq : k0_t1_loop.trips = 16 := by decide

/-- The trip's number as a batch row. -/
abbrev tripRow (k : Fin k0_t1_loop.trips) : Fin 16 := ⟨k.val, lt_of_lt_of_eq k.isLt trips_eq⟩

/-- The one piece trip `k` stores, given the raw contents `f` it finds in the output's buffer. -/
theorem tripL_eq (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole)
    (X2 : BufTy.Contents (Elt F) arg2.view.ty) (X3 : BufTy.Contents (Elt F) arg3.view.ty) (X4 : BufTy.Contents (Elt F) arg4.view.ty) (X5 : BufTy.Contents (Elt F) arg5.view.ty)
    (k : Fin k0_t1_loop.trips) (f : BufTy.Contents (Elt F) arg6.view.ty) :
    tripL_k0_t1 (F := F) Variants.none c none i arg2 harg2 arg3 harg3 arg4 harg4 arg5 harg5 arg6 harg6 X2 X3 X4 X5 k f
      = [(⟨Rect.unit (s := S16x1x1) (k0_off3 k) S1x1x1.size (k0_off3_inb k),
          k0_pay2 (View.readAt (Elt F) arg2.view (Rect.unit (s := S16x2x8192) (k0_off1 k) S1x2x8192.size (k0_off1_inb k)).toLoadRect X2)
            (View.readAt (Elt F) arg3.view (Rect.unit (s := S16x2x8192) (k0_off1 k) S1x2x8192.size (k0_off1_inb k)).toLoadRect X3)
            (View.readAt (Elt F) arg4.view (Rect.unit (s := S16x1x256) (k0_off2 k) S1x1x256.size (k0_off2_inb k)).toLoadRect X4)
            (View.readAt (Elt F) arg5.view (Rect.unit (s := S16x1x256) (k0_off2 k) S1x1x256.size (k0_off2_inb k)).toLoadRect X5)
            (View.readAt (Elt F) arg6.view (Rect.unit (s := S16x1x1) (k0_off3 k) S1x1x1.size (k0_off3_inb k)).toLoadRect f)⟩ : View.Piece (Elt F) S16x1x1 .f32)] := by
  unfold tripL_k0_t1 trip_k0_t1
  rfl

/-- A load of row `k` of a float block is that row. -/
theorem ld_rowF (x : Vec F S16x2x8192 .f32) (k : Fin k0_t1_loop.trips) :
    View.ld x (Rect.unit (s := S16x2x8192) (k0_off1 k) S1x2x8192.size (k0_off1_inb k)) = rowF x (tripRow k) := by
  funext y
  show x ((Rect.unit (s := S16x2x8192) (k0_off1 k) S1x2x8192.size (k0_off1_inb k)).emb y) = _
  unfold rowF
  refine congrArg x (funext fun a => Fin.ext ?_)
  rw [Rect.emb_apply]
  match a with
  | ⟨0, h0⟩ =>
    have e : k0_off1 k ⟨0, h0⟩ = k.val := (congrFun (k0_off1_eq k) ⟨0, h0⟩).trans rfl
    have h : (y ⟨0, h0⟩).val < 1 := (y ⟨0, h0⟩).isLt
    show k0_off1 k ⟨0, h0⟩ + 1 * (y ⟨0, h0⟩).val = k.val
    omega
  | ⟨1, h1⟩ =>
    have e : k0_off1 k ⟨1, h1⟩ = 0 := (congrFun (k0_off1_eq k) ⟨1, h1⟩).trans rfl
    show k0_off1 k ⟨1, h1⟩ + 1 * (y ⟨1, h1⟩).val = (y ⟨1, h1⟩).val
    omega
  | ⟨2, h2⟩ =>
    have e : k0_off1 k ⟨2, h2⟩ = 0 := (congrFun (k0_off1_eq k) ⟨2, h2⟩).trans rfl
    show k0_off1 k ⟨2, h2⟩ + 1 * (y ⟨2, h2⟩).val = (y ⟨2, h2⟩).val
    omega

/-- A load of row `k` of an index block is that row. -/
theorem ld_rowI (x : Vec F S16x1x256 .i32) (k : Fin k0_t1_loop.trips) :
    View.ld x (Rect.unit (s := S16x1x256) (k0_off2 k) S1x1x256.size (k0_off2_inb k)) = rowI x (tripRow k) := by
  funext y
  show x ((Rect.unit (s := S16x1x256) (k0_off2 k) S1x1x256.size (k0_off2_inb k)).emb y) = _
  unfold rowI
  refine congrArg x (funext fun a => Fin.ext ?_)
  rw [Rect.emb_apply]
  match a with
  | ⟨0, h0⟩ =>
    have e : k0_off2 k ⟨0, h0⟩ = k.val := (congrFun (k0_off2_eq k) ⟨0, h0⟩).trans rfl
    have h : (y ⟨0, h0⟩).val < 1 := (y ⟨0, h0⟩).isLt
    show k0_off2 k ⟨0, h0⟩ + 1 * (y ⟨0, h0⟩).val = k.val
    omega
  | ⟨1, h1⟩ =>
    have e : k0_off2 k ⟨1, h1⟩ = 0 := (congrFun (k0_off2_eq k) ⟨1, h1⟩).trans rfl
    show k0_off2 k ⟨1, h1⟩ + 1 * (y ⟨1, h1⟩).val = (y ⟨1, h1⟩).val
    omega
  | ⟨2, h2⟩ =>
    have e : k0_off2 k ⟨2, h2⟩ = 0 := (congrFun (k0_off2_eq k) ⟨2, h2⟩).trans rfl
    show k0_off2 k ⟨2, h2⟩ + 1 * (y ⟨2, h2⟩).val = (y ⟨2, h2⟩).val
    omega

/-- A load of entry `k` of the output block is that entry. -/
theorem ld_rowO (d : Vec F S16x1x1 .f32) (k : Fin k0_t1_loop.trips) :
    View.ld d (Rect.unit (s := S16x1x1) (k0_off3 k) S1x1x1.size (k0_off3_inb k)) = rowO d (tripRow k) := by
  funext y
  show d ((Rect.unit (s := S16x1x1) (k0_off3 k) S1x1x1.size (k0_off3_inb k)).emb y) = _
  unfold rowO
  refine congrArg d (funext fun a => Fin.ext ?_)
  rw [Rect.emb_apply]
  match a with
  | ⟨0, h0⟩ =>
    have e : k0_off3 k ⟨0, h0⟩ = k.val := (congrFun (k0_off3_eq k) ⟨0, h0⟩).trans rfl
    have h : (y ⟨0, h0⟩).val < 1 := (y ⟨0, h0⟩).isLt
    show k0_off3 k ⟨0, h0⟩ + 1 * (y ⟨0, h0⟩).val = k.val
    omega
  | ⟨1, h1⟩ =>
    have e : k0_off3 k ⟨1, h1⟩ = 0 := (congrFun (k0_off3_eq k) ⟨1, h1⟩).trans rfl
    show k0_off3 k ⟨1, h1⟩ + 1 * (y ⟨1, h1⟩).val = (y ⟨1, h1⟩).val
    omega
  | ⟨2, h2⟩ =>
    have e : k0_off3 k ⟨2, h2⟩ = 0 := (congrFun (k0_off3_eq k) ⟨2, h2⟩).trans rfl
    show k0_off3 k ⟨2, h2⟩ + 1 * (y ⟨2, h2⟩).val = (y ⟨2, h2⟩).val
    omega

/-- After the first `n` trips over any base contents `f`, with the loop started from `G`: a row below `n` holds the step
    over what `G` reads, every other row what `f` reads. -/
theorem read_pb (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (x0 : Vec F S16x2x8192 .f32) (x1 : Vec F S16x2x8192 .f32) (x2 : Vec F S16x1x256 .i32) (x3 : Vec F S16x1x256 .i32) (G : BufTy.Contents (Elt F) arg6.view.ty) :
    ∀ (n : ℕ), n ≤ 16 → ∀ (f : BufTy.Contents (Elt F) arg6.view.ty) (y : S16x1x1.Idx),
      arg6.view.read (Elt F) (arg6.view.writes (Elt F) f (pb_k0_t1 (F := F) Variants.none c none i arg2 harg2 arg3 harg3 arg4 harg4 arg5 harg5 arg6 harg6 (harg2.unread x0) (harg3.unread x1) (harg4.unread x2) (harg5.unread x3) G n)) y
        = if (y 0).val < n then stepOut x0 x1 x2 x3 (arg6.view.read (Elt F) G) y else arg6.view.read (Elt F) f y := by
  intro n
  induction n with
  | zero =>
    intro _ f y
    rw [if_neg (Nat.not_lt_zero _)]
    rfl
  | succ n ih =>
    intro hn f y
    have hn' : n < k0_t1_loop.trips := by rw [trips_eq]; omega
    let k : Fin k0_t1_loop.trips := ⟨n, hn'⟩
    have ih' := ih (by omega)
    have hk : k.val = n := rfl
    rw [show n + 1 = k.val + 1 from rfl, pb_k0_t1_succ, tripL_eq, List.cons_append, List.nil_append]
    by_cases hy : (y 0).val = n
    · rw [if_pos (by omega)]
      have hy1 : (y 1).val < 1 := (y 1).isLt
      have hy2 : (y 2).val < 1 := (y 2).isLt
      have hx : ∀ a : Fin S16x1x1.rank, (y a).val = (![k.val, 0, 0] : Fin 3 → ℕ) a + ((i000 : S1x1x1.Idx) a).val := fun a => by
        match a with
        | ⟨0, h0⟩ => show (y 0).val = k.val + 0; omega
        | ⟨1, h1⟩ => show (y 1).val = 0 + 0; omega
        | ⟨2, h2⟩ => show (y 2).val = 0 + 0; omega
      rw [View.read_writes_cons_unit_of_mem arg6.view f (k0_off3_inb k) _ _ y i000 (k0_off3_eq k) hx]
      have hg : (⟨(y 0).val, (y 0).isLt⟩ : Fin 16) = tripRow k := Fin.ext hy
      unfold stepOut
      rw [hg]
      have e2 : View.readAt (Elt F) arg2.view (Rect.unit (s := S16x2x8192) (k0_off1 k) S1x2x8192.size (k0_off1_inb k)).toLoadRect (harg2.unread x0) = rowF x0 (tripRow k) := by
        rw [View.readAt_eq_ld, harg2.read_unread]; exact ld_rowF x0 k
      have e3 : View.readAt (Elt F) arg3.view (Rect.unit (s := S16x2x8192) (k0_off1 k) S1x2x8192.size (k0_off1_inb k)).toLoadRect (harg3.unread x1) = rowF x1 (tripRow k) := by
        rw [View.readAt_eq_ld, harg3.read_unread]; exact ld_rowF x1 k
      have e4 : View.readAt (Elt F) arg4.view (Rect.unit (s := S16x1x256) (k0_off2 k) S1x1x256.size (k0_off2_inb k)).toLoadRect (harg4.unread x2) = rowI x2 (tripRow k) := by
        rw [View.readAt_eq_ld, harg4.read_unread]; exact ld_rowI x2 k
      have e5 : View.readAt (Elt F) arg5.view (Rect.unit (s := S16x1x256) (k0_off2 k) S1x1x256.size (k0_off2_inb k)).toLoadRect (harg5.unread x3) = rowI x3 (tripRow k) := by
        rw [View.readAt_eq_ld, harg5.read_unread]; exact ld_rowI x3 k
      have e6 : View.readAt (Elt F) arg6.view (Rect.unit (s := S16x1x1) (k0_off3 k) S1x1x1.size (k0_off3_inb k)).toLoadRect
            (arg6.view.writes (Elt F) G (pb_k0_t1 (F := F) Variants.none c none i arg2 harg2 arg3 harg3 arg4 harg4 arg5 harg5 arg6 harg6 (harg2.unread x0) (harg3.unread x1) (harg4.unread x2) (harg5.unread x3) G k.val))
          = rowO (arg6.view.read (Elt F) G) (tripRow k) := by
        rw [View.readAt_eq_ld, ← ld_rowO]
        funext x
        show arg6.view.read (Elt F) _ ((Rect.unit (s := S16x1x1) (k0_off3 k) S1x1x1.size (k0_off3_inb k)).emb x) = arg6.view.read (Elt F) G ((Rect.unit (s := S16x1x1) (k0_off3 k) S1x1x1.size (k0_off3_inb k)).emb x)
        rw [ih' G, if_neg]
        rw [Rect.emb_apply]
        have e0 : k0_off3 k 0 = k.val := (congrFun (k0_off3_eq k) 0).trans rfl
        show ¬ k0_off3 k 0 + 1 * (x 0).val < n
        omega
      rw [e2, e3, e4, e5, e6]
    · rw [View.read_writes_cons_unit_of_not_mem arg6.view f (k0_off3_inb k) _ _ y (k0_off3_eq k) 0 (by
        show (y 0).val < k.val ∨ k.val + 1 ≤ (y 0).val
        omega)]
      rw [ih' f y]
      by_cases h1 : (y 0).val < n
      · rw [if_pos h1, if_pos (by omega)]
      · rw [if_neg h1, if_neg (by omega)]

/-- The loop's trip count as the run spells it. -/
theorem trips_lit : Scf.trips (0#32) (Scalar.addi 0#32 16#32) 1#32 = 16 := by decide

/-- Case A: whatever the memref held, after the found stores it reads the step over the zero block. -/
theorem read_runA (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : cond0 i)
    (x0 : Vec F S16x2x8192 .f32) (x1 : Vec F S16x2x8192 .f32) (x2 : Vec F S16x1x256 .i32) (x3 : Vec F S16x1x256 .i32) (f : arg6.view.ty.Contents (Elt F)) :
    arg6.view.read (Elt F) (arg6.view.writes (Elt F) f (runA c i arg2 harg2 arg3 harg3 arg4 harg4 arg5 harg5 arg6 harg6 hc0 x0 x1 x2 x3).1)
      = stepOut x0 x1 x2 x3 (k0_pay1 (F := F)) := by
  funext y
  unfold runA
  dsimp only
  rw [trips_lit, View.writes_append, read_pb c i arg2 harg2 arg3 harg3 arg4 harg4 arg5 harg5 arg6 harg6 x0 x1 x2 x3 _ 16 (le_refl _) _ y,
    if_pos (show (y 0).val < 16 from (y 0).isLt)]
  refine congrArg (fun d => stepOut x0 x1 x2 x3 d y) ?_
  sl_unfold_words
  funext z
  refine View.read_writes_cons_unit_of_mem arg6.view _ _ _ [] z z rfl (fun a => ?_)
  match a with
  | ⟨0, h0⟩ => show (z ⟨0, h0⟩).val = 0 + (z ⟨0, h0⟩).val; omega
  | ⟨1, h1⟩ => show (z ⟨1, h1⟩).val = 0 + (z ⟨1, h1⟩).val; omega
  | ⟨2, h2⟩ => show (z ⟨2, h2⟩).val = 0 + (z ⟨2, h2⟩).val; omega

/-- Case B: whatever the memref held, after the found stores it reads the step over the running contents. -/
theorem read_runB (c : Dev nD) (i : grid0.Coords) (arg2 : Memref sig .tc .vmem S16x2x8192 .f32) (harg2 : arg2.IsWhole) (arg3 : Memref sig .tc .vmem S16x2x8192 .f32) (harg3 : arg3.IsWhole) (arg4 : Memref sig .tc .vmem S16x1x256 .i32) (harg4 : arg4.IsWhole) (arg5 : Memref sig .tc .vmem S16x1x256 .i32) (harg5 : arg5.IsWhole) (arg6 : Memref sig .tc .vmem S16x1x1 .f32) (harg6 : arg6.IsWhole) (hc0 : ¬cond0 i)
    (x0 : Vec F S16x2x8192 .f32) (x1 : Vec F S16x2x8192 .f32) (x2 : Vec F S16x1x256 .i32) (x3 : Vec F S16x1x256 .i32) (xo : Vec F S16x1x1 .f32) (f : arg6.view.ty.Contents (Elt F)) :
    arg6.view.read (Elt F) (arg6.view.writes (Elt F) f (runB c i arg2 harg2 arg3 harg3 arg4 harg4 arg5 harg5 arg6 harg6 hc0 x0 x1 x2 x3 xo).1)
      = stepOut x0 x1 x2 x3 xo := by
  funext y
  unfold runB
  dsimp only
  rw [trips_lit, read_pb c i arg2 harg2 arg3 harg3 arg4 harg4 arg5 harg5 arg6 harg6 x0 x1 x2 x3 _ 16 (le_refl _) _ y,
    if_pos (show (y 0).val < 16 from (y 0).isLt), harg6.read_unread]

end Cert.KernelIdeal.Body

end
-- ==== Proof.BodyData.lean ====
/-
  The pipeline's proof data, the body obligation, and the run of the whole program to the frame's post, for any
  float family.

  The output window's staging block is an accumulator across the 64 points of one batch group: at the group's first
  point (the points that are multiples of 64) the body zeroes it and adds the point's partial sums; at every other
  point it adds to what the point before left. `outsAt` states that by recursion on the point. The input windows'
  blocks are left in place. The window is written back at the group's last point only, so between two points of a
  group the block the body finds is the one it left.
-/
import proofs.«417695_j40845138985586_2_alg».proof.Proof.BodyRun
import proofs.«417695_j40845138985586_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`, and that it is a whole buffer. -/
abbrev ms0 (t : Fin cfg0.N) : Memref sig .tc .vmem S16x2x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x2x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x1x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x1x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1x1 .f32 := win0_4.stage (cfg0.slots t 4)
abbrev hs4 (t : Fin cfg0.N) : (ms4 t).IsWhole := hstage0_4 ((cfg0.slots t 4).cast nbuf0_4)

/-! ## What the output block holds after each point -/

/-- The output window's staging block after the body at position `n`: at a multiple of 64 the step over the zero
    block, elsewhere the step over what position `n - 1` left. -/
def outsAt (c : Dev nD) : (n : ℕ) → n < cfg0.N → Vec F S16x1x1 .f32
  | 0, hn => stepOut (iblk m c 0 ⟨0, hn⟩) (iblk m c 1 ⟨0, hn⟩) (iblk m c 2 ⟨0, hn⟩) (iblk m c 3 ⟨0, hn⟩) (k0_pay1 (F := F))
  | n + 1, hn =>
    if h0 : (n + 1) % 64 = 0 then
      stepOut (iblk m c 0 ⟨n + 1, hn⟩) (iblk m c 1 ⟨n + 1, hn⟩) (iblk m c 2 ⟨n + 1, hn⟩) (iblk m c 3 ⟨n + 1, hn⟩) (k0_pay1 (F := F))
    else
      stepOut (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- At a group's first point: the step over the zero block. -/
theorem outsAt_A (c : Dev nD) (t : Fin cfg0.N) (h0 : t.val % 64 = 0) :
    outsAt m c t.val t.isLt = stepOut (iblk m c 0 t) (iblk m c 1 t) (iblk m c 2 t) (iblk m c 3 t) (k0_pay1 (F := F)) := by
  obtain ⟨n, hn⟩ := t
  cases n with
  | zero => exact rfl
  | succ n => exact (dif_pos h0).trans rfl

/-- At any other point: the step over what the point before left. -/
theorem outsAt_B (c : Dev nD) (t : Fin cfg0.N) (h0 : ¬t.val % 64 = 0) :
    outsAt m c t.val t.isLt = stepOut (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of the one pipeline on core `c`: the arrays as the region finds them; after the body each input's
    buffer at its block and the output's at `outsAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt) := by dsimp only [dats]

/-! ## What each staging block holds when the body is called -/

/-- Each input's current staging block holds its window's block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Inside a group the output's staging block holds what the body left at the point before: the point is not the
    first, the block is written back at a group's last point only, and the window is live and uncut. -/
theorem before4_B (c : Dev nD) (t : Fin cfg0.N) (h0 : ¬t.val % 64 = 0) (d) :
    (dats m 0 c).before 4 t d = outsAt m c (t.val - 1) (Nat.lt_of_le_of_lt (Nat.sub_le _ _) t.isLt) := by
  have hN : t.val < 1024 := lt_of_lt_of_eq t.isLt (show cfg0.N = 1024 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`: the invariant, nothing owed, and each window's staging block. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point. The inputs' staging blocks hold their windows' blocks. At a group's first point the
    condition holds and the body overwrites the output block whatever it held; at any other point the condition fails
    and the output block holds what the point before left, which the body steps. The invariant passes through unread
    and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 64 = 0
  · rw [outsAt_A m c t h0]
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond0 t).mpr h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_runA c _ _ _ _ _ _ _ _ _ _ _ _ _ _ _ _ _
  · rw [outsAt_B m c t h0]
    simp only [before4_B m c t h0]
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0 t).mp h))
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact read_runB c _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the proof data
    say, and every other buffer at what the host lines after the region compute from the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame claim's post, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  What both programs compute, as one function of the four argument arrays.

  `P`, `T` are the two [256, 8192, 2] float arrays (predictions and targets: batch, sequence position, channel);
  `I`, `J` are the two [256, 16383] arrays of 32-bit index words (for each batch, the warping path's positions
  into the two sequences). For a pair `(b, p)` the term is the L1 distance
      ∑ c, |P[b, I[b,p], c] - T[b, J[b,p], c]|
  and the result is the sum of all the pair terms, added to the float zero and divided by the float 2097152
  (= 256 · 8192), the two constants kept as the words both programs carry. A word `w` is read as a position by
  `pos`; it is the word's own value when that value is below 8192 (`InRange`), which is the only case the
  statements about the programs use.
-/
import Idealize.ShloMosaic.PureOps.Ideal
import Idealize.ShloMosaic.Lib.ValueIdx

noncomputable section

open Idealize.ShloMosaic
open scoped BigOperators

namespace Cert.Proof.Spec

/-- The float arrays' shape, the index arrays' shape, the scalar's shape. -/
abbrev SP : Shape := ⟨3, ![256, 8192, 2]⟩
abbrev SI : Shape := ⟨2, ![256, 16383]⟩
abbrev S0 : Shape := ⟨0, ![]⟩

abbrev FArr : Type := (⟨SP, .f32⟩ : BufTy).Contents (Elt Ideal)
abbrev IArr : Type := (⟨SI, .i32⟩ : BufTy).Contents (Elt Ideal)
abbrev Scal : Type := (⟨S0, .f32⟩ : BufTy).Contents (Elt Ideal)

/-- Every index word, read unsigned, is a position of the sequence axis: `0 ≤ w < 8192`. -/
def InRange (I : IArr) : Prop := ∀ j : SI.Idx, (I j).toNat < 8192

/-- A word read as a position of the sequence axis. -/
def pos (w : BitVec 32) : Fin 8192 := ⟨w.toNat % 8192, Nat.mod_lt _ (by decide)⟩

theorem pos_val_of_lt {w : BitVec 32} (h : w.toNat < 8192) : (pos w).val = w.toNat := Nat.mod_eq_of_lt h

/-- The entry of `P` a pair's first index selects, channel `c`. -/
def sel (P : FArr) (I : IArr) (b : Fin 256) (p : Fin 16383) (c : Fin 2) : EReal :=
  P (ValueIdx.ix3 b (pos (I (ValueIdx.ix2 b p))) c)

/-- The absolute value on the extended reals, as both programs take it. -/
def eabs (x : EReal) : EReal := max x (-x)

/-- One pair's L1 distance. -/
def pairTerm (P T : FArr) (I J : IArr) (b : Fin 256) (p : Fin 16383) : EReal :=
  ∑ c : Fin 2, eabs (sel P I b p c - sel T J b p c)

/-- The sum over all pairs of all batches. -/
def lossSum (P T : FArr) (I J : IArr) : EReal :=
  ∑ b : Fin 256, ∑ p : Fin 16383, pairTerm P T I J b p

/-- The result: the float zero plus the sum, divided by the float 2097152 (the host's division). -/
def result (P T : FArr) (I J : IArr) : Scal :=
  fun _ => FloatOps.hostDivf (F := Ideal) (φ := .f32)
    (FloatOps.ofBits (F := Ideal) .f32 0x00000000#32 + lossSum P T I J)
    (FloatOps.ofBits (F := Ideal) .f32 0x4A000000#32)

/-! ## The same number as the kernel groups it

The kernel selects an entry by a contraction with a 0/1 column (`hot`), reads the index rows padded by one column
holding the word 8192 (a position no sequence has), and sums 64 tiles of 256 columns per batch. -/

/-- The 0/1 weight of position `s` against the word `w`: `1` exactly when `w` is the 32-bit word of `s`. -/
def hot (s : Fin 8192) (w : BitVec 32) : EReal := if BitVec.ofNat 32 s.val = w then 1 else 0

/-- A batch's index row with its padding column: the word at column `p`, and `8192` at the last column. -/
def padded (I : IArr) (b : Fin 256) (p : Fin 16384) : BitVec 32 :=
  if h : p.val < 16383 then I (ValueIdx.ix2 b ⟨p.val, h⟩) else 8192#32

/-- The selection by contraction: `∑ s, P[b, s, c] · hot s w`. -/
def hotSel (P : FArr) (b : Fin 256) (c : Fin 2) (w : BitVec 32) : EReal :=
  ∑ s : Fin 8192, P (ValueIdx.ix3 b s c) * hot s w

/-- One padded column's L1 term. -/
def colTerm (P T : FArr) (I J : IArr) (b : Fin 256) (p : Fin 16384) : EReal :=
  ∑ c : Fin 2, eabs (hotSel P b c (padded I b p) - hotSel T b c (padded J b p))

/-- One tile of 256 columns. -/
def tileLoss (P T : FArr) (I J : IArr) (b : Fin 256) (pt : Fin 64) : EReal :=
  ∑ l : Fin 256, colTerm P T I J b ⟨256 * pt.val + l.val, by have := pt.isLt; have := l.isLt; omega⟩

/-- The same tile by its number, `0` past the last. -/
def tileLossN (P T : FArr) (I J : IArr) (b : Fin 256) (q : ℕ) : EReal :=
  if h : q < 64 then tileLoss P T I J b ⟨q, h⟩ else 0

/-- A batch's total as the kernel's output block ends: the float zero plus its 64 tiles. -/
def rowTotal (P T : FArr) (I J : IArr) (b : Fin 256) : EReal :=
  FloatOps.ofBits (F := Ideal) .f32 0x00000000#32 + ∑ pt : Fin 64, tileLoss P T I J b pt

/-- The kernel's result in this grouping. -/
def kernelResult (P T : FArr) (I J : IArr) : Scal :=
  fun _ => FloatOps.hostDivf (F := Ideal) (φ := .f32)
    (FloatOps.ofBits (F := Ideal) .f32 0x00000000#32 + ∑ b : Fin 256, rowTotal P T I J b)
    (FloatOps.ofBits (F := Ideal) .f32 0x4A000000#32)

end Cert.Proof.Spec

end
-- ==== Proof.PayIdeal.lean ====
/-
  The loop body's stored value at the extended reals.

  One trip computes, from one batch's rows `v6`, `v10` of the two float blocks and its rows `v14`, `v17` of index
  words: for each of the 256 columns `l` and each channel `c`, the contraction of the float row with the 0/1 column
  "position = index word"; the absolute difference of the two contractions; the sum over the two channels, then over
  the 256 columns; and adds that to the accumulator entry `v38`. A change of float format is the identity here, a
  matrix product into a zero accumulator is the plain sum of products, and a lane sum is a plain sum.
-/
import proofs.«417695_j40845138985586_2_alg».proof.Proof.Gen.KernelIdeal.Skeleton
import proofs.«417695_j40845138985586_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdeal

open Cert.KernelIdeal Cert.KernelIdeal.Gen
open Idealize.ShloMosaic Idealize.ShloMosaic.TcCoe Idealize.SL.Sem
open scoped BigOperators
open Cert.Proof
open Idealize.ShloMosaic.ValueIdx

/-- The zero block the first point of a group stores. -/
theorem pay1_apply (y : S16x1x1.Idx) :
    k0_pay1 (F := Ideal) y = FloatOps.ofBits (F := Ideal) .f32 0x00000000#32 := by
  rfl

/-! ## The operations of one trip, read at an index -/

/-- The 1-bit comparison, widened and converted, is the 0/1 weight. -/
private theorem hot_word (s : Fin 8192) (w : BitVec 32) :
    FloatOps.sitofp (F := Ideal) .f32 ((IntOp.cmpi .eq (BitVec.ofNat 32 s.val) w).setWidth 32) = Spec.hot s w := by
  unfold Spec.hot
  by_cases h : BitVec.ofNat 32 s.val = w
  · have hc : IntOp.cmpi .eq (BitVec.ofNat 32 s.val) w = 1#1 := by
      show BitVec.ofBool (BitVec.ofNat 32 s.val == w) = 1#1
      rw [beq_iff_eq.mpr h]; rfl
    rw [hc, if_pos h]
    show ((((1#1 : BitVec 1).setWidth 32).toInt : ℝ) : EReal) = 1
    rw [show ((1#1 : BitVec 1).setWidth 32).toInt = 1 by decide]
    simp
  · have hc : IntOp.cmpi .eq (BitVec.ofNat 32 s.val) w = 0#1 := by
      show BitVec.ofBool (BitVec.ofNat 32 s.val == w) = 0#1
      rw [beq_eq_false_iff_ne.mpr h]; rfl
    rw [hc, if_neg h]
    show ((((0#1 : BitVec 1).setWidth 32).toInt : ℝ) : EReal) = 0
    rw [show ((0#1 : BitVec 1).setWidth 32).toInt = 0 by decide]
    simp

/-- The position counter along axis 0: entry `(s, l)` is the 32-bit word of `s`. -/
private theorem iota_apply (s : Fin 8192) (l : Fin 256) :
    iota .tc S8192x256 32 [0] iota_S8192x256_d0_w32 (ix2 s l) = BitVec.ofNat 32 s.val := by
  show BitVec.ofNat 32 (0 * 8192 + s.val) = _
  rw [Nat.zero_mul, Nat.zero_add]

/-- The 0/1 matrix of an index row: entry `(s, l)` is `1` exactly when word `l` of the row is the word of `s`. -/
private theorem hotMat_apply (v : Vec Ideal S1x1x256 .i32) (s : Fin 8192) (l : Fin 256) :
    (truncf .bf16 (sitofp .f32 (extui 32 (cmpi .eq (iota .tc S8192x256 32 [0] iota_S8192x256_d0_w32)
        (broadcastTo S8192x256 (shapeCast S1x256 v shapeCasts_S1x1x256_S1x256) broadcasts_S1x256_S8192x256)) natLt_1_32)
        : FVec Ideal S8192x256 .f32) bitsLt_bf16_f32 : FVec Ideal S8192x256 .bf16) (ix2 s l)
      = Spec.hot s (v (ix3 (0 : Fin 1) (0 : Fin 1) l)) := by
  rw [truncf_apply, sitofp_apply, extui_apply]
  show FloatOps.sitofp (F := Ideal) .f32 ((IntOp.cmpi .eq (iota .tc S8192x256 32 [0] iota_S8192x256_d0_w32 (ix2 s l))
      (broadcastTo S8192x256 (shapeCast S1x256 v shapeCasts_S1x1x256_S1x256) broadcasts_S1x256_S8192x256 (ix2 s l))).setWidth 32) = _
  rw [iota_apply, broadcastTo_1b_ab_apply, shapeCast_1ab_ab_apply, hot_word]

/-! The matrix product's operand indices, axis by axis. -/

private theorem lhs_0 (j : S2x256.Idx) (k : dot_S2x8192_S8192x256_S2x256_1_0_0_1_n_n.contr.Idx) :
    (dot_S2x8192_S8192x256_S2x256_1_0_0_1_n_n.lhsIdx j k 0).val = (j 0).val := by
  simp [DotDims.lhsIdx, dot_S2x8192_S8192x256_S2x256_1_0_0_1_n_n]; rfl
private theorem lhs_1 (j : S2x256.Idx) (k : dot_S2x8192_S8192x256_S2x256_1_0_0_1_n_n.contr.Idx) :
    (dot_S2x8192_S8192x256_S2x256_1_0_0_1_n_n.lhsIdx j k 1).val = (k ⟨0, by decide⟩).val :=
  DotDims.lhsIdx_val_of_single (d := dot_S2x8192_S8192x256_S2x256_1_0_0_1_n_n) (cl := 1) rfl j k
private theorem rhs_0 (j : S2x256.Idx) (k : dot_S2x8192_S8192x256_S2x256_1_0_0_1_n_n.contr.Idx) :
    (dot_S2x8192_S8192x256_S2x256_1_0_0_1_n_n.rhsIdx j k 0).val = (k ⟨0, by decide⟩).val :=
  DotDims.rhsIdx_val_of_single (d := dot_S2x8192_S8192x256_S2x256_1_0_0_1_n_n) (cr := 0) rfl j k
private theorem rhs_1 (j : S2x256.Idx) (k : dot_S2x8192_S8192x256_S2x256_1_0_0_1_n_n.contr.Idx) :
    (dot_S2x8192_S8192x256_S2x256_1_0_0_1_n_n.rhsIdx j k 1).val = (j 1).val := by
  simp [DotDims.rhsIdx, dot_S2x8192_S8192x256_S2x256_1_0_0_1_n_n]; rfl

/-- A product into the zero block, at channel `c` and column `l`: the sum over the 8192 positions. -/
private theorem matmul_zero_apply (A : FVec Ideal S2x8192 .bf16) (B : FVec Ideal S8192x256 .bf16) (c : Fin 2) (l : Fin 256) :
    matmul dot_S2x8192_S8192x256_S2x256_1_0_0_1_n_n none A B (constant (F := Ideal) S2x256 .f32 0x00000000#32) (ix2 c l)
      = ∑ s : Fin 8192, A (ix2 c s) * B (ix2 s l) := by
  refine (Ideal.matmul_constant_zero_apply dot_S2x8192_S8192x256_S2x256_1_0_0_1_n_n none A B (ix2 c l)).trans ?_
  rw [← Equiv.sum_comp (contrEquiv1 dot_S2x8192_S8192x256_S2x256_1_0_0_1_n_n 8192 rfl rfl).symm]
  refine Finset.sum_congr rfl fun s _ => ?_
  have hk := contrEquiv1_symm_val dot_S2x8192_S8192x256_S2x256_1_0_0_1_n_n 8192 rfl rfl s
  congr 2
  · funext a
    apply Fin.ext
    match a with
    | ⟨0, _⟩ => exact lhs_0 _ _
    | ⟨1, _⟩ => exact (lhs_1 _ _).trans hk
  · funext a
    apply Fin.ext
    match a with
    | ⟨0, _⟩ => exact (rhs_0 _ _).trans hk
    | ⟨1, _⟩ => exact rhs_1 _ _

/-- The lane sum over the two channels, at column `l`. -/
private theorem red0_apply (src : FVec Ideal S2x256 .f32) (l : Fin 256) :
    multiReduction (F := Ideal) .add [0] S256 src 0x00000000#32 reduces_S2x256_S256 (.inl rfl) rfl (ix1 l)
      = ∑ c : Fin 2, src (ix2 c l) := by
  refine (Ideal.multiReduction_add_single src 0x00000000#32 reduces_S2x256_S256 (.inl rfl) rfl (ix1 l)).trans ?_
  refine Finset.sum_congr rfl fun c _ => congrArg src ?_
  funext a; apply Fin.ext
  match a with
  | ⟨0, _⟩ => rfl
  | ⟨1, _⟩ => rfl

/-- The lane sum over the 256 columns. -/
private theorem red1_apply (src : FVec Ideal S1x256 .f32) (u : Fin 1) :
    multiReduction (F := Ideal) .add [1] S1 src 0x00000000#32 reduces_S1x256_S1 (.inl rfl) rfl (ix1 u)
      = ∑ l : Fin 256, src (ix2 (0 : Fin 1) l) := by
  refine (Ideal.multiReduction_add_single src 0x00000000#32 reduces_S1x256_S1 (.inl rfl) rfl (ix1 u)).trans ?_
  refine Finset.sum_congr rfl fun l _ => congrArg src ?_
  funext a; apply Fin.ext
  match a with
  | ⟨0, _⟩ => show (u : ℕ) = 0; omega
  | ⟨1, _⟩ => rfl

/-- One selection by contraction: channel `ch` of the float row against the 0/1 column of index word `l`. -/
private theorem sel_apply (v : Vec Ideal S1x2x8192 .f32) (w : Vec Ideal S1x1x256 .i32) (ch : Fin 2) (l : Fin 256) :
    matmul dot_S2x8192_S8192x256_S2x256_1_0_0_1_n_n none
        (truncf .bf16 (shapeCast S2x8192 v shapeCasts_S1x2x8192_S2x8192 : FVec Ideal S2x8192 .f32) bitsLt_bf16_f32
          : FVec Ideal S2x8192 .bf16)
        (truncf .bf16 (sitofp .f32 (extui 32 (cmpi .eq (iota .tc S8192x256 32 [0] iota_S8192x256_d0_w32)
          (broadcastTo S8192x256 (shapeCast S1x256 w shapeCasts_S1x1x256_S1x256) broadcasts_S1x256_S8192x256)) natLt_1_32)
          : FVec Ideal S8192x256 .f32) bitsLt_bf16_f32 : FVec Ideal S8192x256 .bf16)
        (constant (F := Ideal) S2x256 .f32 0x00000000#32) (ix2 ch l)
      = ∑ s : Fin 8192, v (ix3 (0 : Fin 1) ch s) * Spec.hot s (w (ix3 (0 : Fin 1) (0 : Fin 1) l)) := by
  rw [matmul_zero_apply]
  refine Finset.sum_congr rfl fun s _ => ?_
  rw [hotMat_apply, truncf_apply, shapeCast_1ab_ab_apply]

/-- The absolute value at an index is the larger of the entry and its negation. -/
private theorem absf_apply {s : Shape} {φ : FTy} (a : FVec Ideal s φ) (i : s.Idx) : absf a i = max (a i) (-(a i)) := rfl

/-- The trip's stored value: the accumulator entry plus the batch's partial loss over this tile. -/
theorem pay2_apply (v6 v10 : Vec Ideal S1x2x8192 .f32) (v14 v17 : Vec Ideal S1x1x256 .i32) (v38 : Vec Ideal S1x1x1 .f32)
    (y : S1x1x1.Idx) :
    k0_pay2 (F := Ideal) v6 v10 v14 v17 v38 y
      = v38 y + ∑ l : Fin 256, ∑ c : Fin 2, Spec.eabs
          ((∑ s : Fin 8192, v6 (ValueIdx.ix3 (0 : Fin 1) c s) * Spec.hot s (v14 (ValueIdx.ix3 (0 : Fin 1) (0 : Fin 1) l)))
            - (∑ s : Fin 8192, v10 (ValueIdx.ix3 (0 : Fin 1) c s) * Spec.hot s (v17 (ValueIdx.ix3 (0 : Fin 1) (0 : Fin 1) l)))) := by
  obtain ⟨a, b, c, rfl⟩ : ∃ (a b c : Fin 1), y = ix3 a b c := ⟨y 0, y 1, y 2, eq_ix3 y⟩
  obtain rfl : a = 0 := Subsingleton.elim _ _
  unfold k0_pay2
  rw [shapeCast_ab_1ab_apply, addf_apply, shapeCast_1ab_ab_apply, shapeCast_a_1a_apply, red1_apply]
  congr 1
  refine Finset.sum_congr rfl fun l _ => ?_
  rw [shapeCast_a_1a_apply, red0_apply]
  refine Finset.sum_congr rfl fun ch _ => ?_
  rw [absf_apply, subf_apply, sel_apply, sel_apply]
  rfl

end Cert.KernelIdeal.PayIdeal

end
-- ==== Proof.KernelIn.lean ====
/-
  The input windows' blocks, entry by entry, in terms of the program's argument arrays.

  Before the region the host transposes each float array to [256, 2, 8192] (batch, channel, position), pads each
  index array by one column holding 8192 and reshapes it to [256, 1, 16384]. Window 0 and 1 stage, at the point
  `64·ng + pt`, the 16 batches `16·ng …` of a transposed float array; windows 2 and 3 stage those batches' columns
  `256·pt …` of a padded index array. A block's coordinate is always index × size + the coordinate inside the block.
-/
import proofs.«417695_j40845138985586_2_alg».proof.Proof.Gen.KernelIdeal.Frame
import proofs.«417695_j40845138985586_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.KIn

open Cert.KernelIdeal Cert.KernelIdeal.Gen
open Idealize.ShloMosaic Idealize.ShloMosaic.TcCoe Idealize.SL.Sem
open scoped BigOperators
open Cert.Proof

variable (m : (ℓ : Loc nD τ sig) → Buf (Elt Ideal) ℓ)

/-! ## The index maps over the grid

The grid is 16 × 64, point `t` at coordinates `(t / 64, t % 64)`. Windows 0 and 1 follow the first coordinate on the
batch axis only; windows 2 and 3 follow the first coordinate on the batch axis and the second on the column axis. -/

private theorem idx0 : ∀ t : Fin cfg0.N, win0_0.index t (0 : Fin 3) = t.val / 64 ∧ win0_0.index t (1 : Fin 3) = 0 ∧ win0_0.index t (2 : Fin 3) = 0 :=
  (by decide +kernel : ∀ t : Fin grid0.N, win0_0.index t (0 : Fin 3) = t.val / 64 ∧ win0_0.index t (1 : Fin 3) = 0 ∧ win0_0.index t (2 : Fin 3) = 0)

private theorem idx1 : ∀ t : Fin cfg0.N, win0_1.index t (0 : Fin 3) = t.val / 64 ∧ win0_1.index t (1 : Fin 3) = 0 ∧ win0_1.index t (2 : Fin 3) = 0 :=
  (by decide +kernel : ∀ t : Fin grid0.N, win0_1.index t (0 : Fin 3) = t.val / 64 ∧ win0_1.index t (1 : Fin 3) = 0 ∧ win0_1.index t (2 : Fin 3) = 0)

private theorem idx2 : ∀ t : Fin cfg0.N, win0_2.index t (0 : Fin 3) = t.val / 64 ∧ win0_2.index t (1 : Fin 3) = 0 ∧ win0_2.index t (2 : Fin 3) = t.val % 64 :=
  (by decide +kernel : ∀ t : Fin grid0.N, win0_2.index t (0 : Fin 3) = t.val / 64 ∧ win0_2.index t (1 : Fin 3) = 0 ∧ win0_2.index t (2 : Fin 3) = t.val % 64)

private theorem idx3 : ∀ t : Fin cfg0.N, win0_3.index t (0 : Fin 3) = t.val / 64 ∧ win0_3.index t (1 : Fin 3) = 0 ∧ win0_3.index t (2 : Fin 3) = t.val % 64 :=
  (by decide +kernel : ∀ t : Fin grid0.N, win0_3.index t (0 : Fin 3) = t.val / 64 ∧ win0_3.index t (1 : Fin 3) = 0 ∧ win0_3.index t (2 : Fin 3) = t.val % 64)

/-! ## The windows' arrays as the host operations leave them -/

/-- Window 0's array is the first float array with its last two axes exchanged. -/
private theorem V_v0 (c : Dev nD) : (V (F := Ideal) m c main_v0 : Vec Ideal S256x2x8192 .f32)
    = transpose S256x2x8192 [0, 2, 1] (m ((c.tc : Thread nD τ).loc main_arg0) : Vec Ideal S256x8192x2 .f32) transposes_S256x8192x2_S256x2x8192_0_2_1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- Window 1's array, likewise of the second float array. -/
private theorem V_v1 (c : Dev nD) : (V (F := Ideal) m c main_v1 : Vec Ideal S256x2x8192 .f32)
    = transpose S256x2x8192 [0, 2, 1] (m ((c.tc : Thread nD τ).loc main_arg1) : Vec Ideal S256x8192x2 .f32) transposes_S256x8192x2_S256x2x8192_0_2_1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- Window 2's array: the first index array padded by one high column of the word 8192, then given a unit middle axis. -/
private theorem V_v4 (c : Dev nD) : (V (F := Ideal) m c main_v4 : Vec Ideal S256x1x16384 .i32)
    = shapeCast S256x1x16384 (pad S256x16384 ![0, 0] ![0, 1] ![0, 0] (m ((c.tc : Thread nD τ).loc main_arg2) : Vec Ideal S256x16383 .i32) (constantI S_ 32 8192#32) pads_S256x16383_S256x16384_000_010 h_S_) shapeCasts_S256x16384_S256x1x16384 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Window 3's array, likewise of the second index array. -/
private theorem V_v5 (c : Dev nD) : (V (F := Ideal) m c main_v5 : Vec Ideal S256x1x16384 .i32)
    = shapeCast S256x1x16384 (pad S256x16384 ![0, 0] ![0, 1] ![0, 0] (m ((c.tc : Thread nD τ).loc main_arg3) : Vec Ideal S256x16383 .i32) (constantI S_ 32 8192#32) pads_S256x16383_S256x16384_000_010 h_S_) shapeCasts_S256x16384_S256x1x16384 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## A padded and reshaped index array read at an index -/

/-- The padded array with a unit middle axis, at `(b, 0, p)`: the array's word at `(b, p)` for a column `p` of the
    array, the padding word at the one column past it. -/
private theorem padded_apply (I : Vec Ideal S256x16383 .i32) (b : Fin 256) (p : Fin 16384) :
    shapeCast S256x1x16384 (pad S256x16384 ![0, 0] ![0, 1] ![0, 0] I (constantI S_ 32 8192#32) pads_S256x16383_S256x16384_000_010 h_S_)
        shapeCasts_S256x16384_S256x1x16384 (ValueIdx.ix3 b (0 : Fin 1) p)
      = Spec.padded I b p := by
  refine (shapeCast_apply _ _ (ValueIdx.ix3 b (0 : Fin 1) p) (ValueIdx.ix2 b p) (by
    rw [Shape.rowMajor_val_two, Shape.rowMajor_val_three]
    show b.val * 16384 + p.val = (b.val * 1 + 0) * 16384 + p.val
    omega)).trans ?_
  unfold Spec.padded
  by_cases hp : p.val < 16383
  · rw [dif_pos hp]
    exact pad_apply_of_inside _ _ _ I _ pads_S256x16383_S256x16384_000_010 h_S_ (ValueIdx.ix2 b p) (ValueIdx.ix2 b ⟨p.val, hp⟩)
      (fun a => match a with
        | ⟨0, _⟩ => by show b.val = 0 + b.val * (0 + 1); omega
        | ⟨1, _⟩ => by show p.val = 0 + p.val * (0 + 1); omega)
  · rw [dif_neg hp]
    refine (pad_apply_of_not_inside _ _ _ I _ pads_S256x16383_S256x16384_000_010 h_S_ (ValueIdx.ix2 b p) (1 : Fin 2) ?_).trans rfl
    show ¬(0 ≤ p.val ∧ (p.val - 0) % (0 + 1) = 0 ∧ (p.val - 0) / (0 + 1) < 16383)
    omega

/-! ## The blocks -/

/-- Window 0's block: batch `16·ng + g`, channel `ch`, position `s` of the first float array. -/
theorem blk0_apply (c : Dev nD) (t : Fin cfg0.N) (ng : Fin 16) (pt : Fin 64) (ht : t.val = 64 * ng.val + pt.val)
    (g : Fin 16) (ch : Fin 2) (s : Fin 8192) :
    (iblk (F := Ideal) m c 0 t : Vec Ideal S16x2x8192 .f32) (ValueIdx.ix3 g ch s)
      = (m ((c.tc : Thread nD τ).loc main_arg0) : Spec.FArr)
          (ValueIdx.ix3 (⟨16 * ng.val + g.val, by have := ng.isLt; have := g.isLt; omega⟩ : Fin 256) s ch) := by
  obtain ⟨e0, e1, e2⟩ := idx0 t
  have e : (iblk (F := Ideal) m c 0 t : Vec Ideal S16x2x8192 .f32) (ValueIdx.ix3 g ch s)
      = (V (F := Ideal) m c main_v0 : Vec Ideal S256x2x8192 .f32)
          (ValueIdx.ix3 (⟨16 * ng.val + g.val, by have := ng.isLt; have := g.isLt; omega⟩ : Fin 256) ch s) := by
    show V (F := Ideal) m c main_v0 (((cfg0.win 0).blk t).view.emb (ValueIdx.ix3 g ch s)) = _
    refine congrArg (V (F := Ideal) m c main_v0) (funext fun a => Fin.ext ?_)
    match a with
    | ⟨0, _⟩ => show win0_0.index t (0 : Fin 3) * 16 + 1 * g.val = 16 * ng.val + g.val; have := pt.isLt; omega
    | ⟨1, _⟩ => show win0_0.index t (1 : Fin 3) * 2 + 1 * ch.val = ch.val; omega
    | ⟨2, _⟩ => show win0_0.index t (2 : Fin 3) * 8192 + 1 * s.val = s.val; omega
  rw [e, V_v0]
  exact ValueIdx.transpose_ix3_021_apply _ transposes_S256x8192x2_S256x2x8192_0_2_1 _ ch s

/-- Window 1's block, of the second float array. -/
theorem blk1_apply (c : Dev nD) (t : Fin cfg0.N) (ng : Fin 16) (pt : Fin 64) (ht : t.val = 64 * ng.val + pt.val)
    (g : Fin 16) (ch : Fin 2) (s : Fin 8192) :
    (iblk (F := Ideal) m c 1 t : Vec Ideal S16x2x8192 .f32) (ValueIdx.ix3 g ch s)
      = (m ((c.tc : Thread nD τ).loc main_arg1) : Spec.FArr)
          (ValueIdx.ix3 (⟨16 * ng.val + g.val, by have := ng.isLt; have := g.isLt; omega⟩ : Fin 256) s ch) := by
  obtain ⟨e0, e1, e2⟩ := idx1 t
  have e : (iblk (F := Ideal) m c 1 t : Vec Ideal S16x2x8192 .f32) (ValueIdx.ix3 g ch s)
      = (V (F := Ideal) m c main_v1 : Vec Ideal S256x2x8192 .f32)
          (ValueIdx.ix3 (⟨16 * ng.val + g.val, by have := ng.isLt; have := g.isLt; omega⟩ : Fin 256) ch s) := by
    show V (F := Ideal) m c main_v1 (((cfg0.win 1).blk t).view.emb (ValueIdx.ix3 g ch s)) = _
    refine congrArg (V (F := Ideal) m c main_v1) (funext fun a => Fin.ext ?_)
    match a with
    | ⟨0, _⟩ => show win0_1.index t (0 : Fin 3) * 16 + 1 * g.val = 16 * ng.val + g.val; have := pt.isLt; omega
    | ⟨1, _⟩ => show win0_1.index t (1 : Fin 3) * 2 + 1 * ch.val = ch.val; omega
    | ⟨2, _⟩ => show win0_1.index t (2 : Fin 3) * 8192 + 1 * s.val = s.val; omega
  rw [e, V_v1]
  exact ValueIdx.transpose_ix3_021_apply _ transposes_S256x8192x2_S256x2x8192_0_2_1 _ ch s

/-- Window 2's block: the padded first index array's word at batch `16·ng + g`, column `256·pt + l`. -/
theorem blk2_apply (c : Dev nD) (t : Fin cfg0.N) (ng : Fin 16) (pt : Fin 64) (ht : t.val = 64 * ng.val + pt.val)
    (g : Fin 16) (l : Fin 256) :
    (iblk (F := Ideal) m c 2 t : Vec Ideal S16x1x256 .i32) (ValueIdx.ix3 g (0 : Fin 1) l)
      = Spec.padded (m ((c.tc : Thread nD τ).loc main_arg2) : Spec.IArr)
          (⟨16 * ng.val + g.val, by have := ng.isLt; have := g.isLt; omega⟩ : Fin 256)
          (⟨256 * pt.val + l.val, by have := pt.isLt; have := l.isLt; omega⟩ : Fin 16384) := by
  obtain ⟨e0, e1, e2⟩ := idx2 t
  have e : (iblk (F := Ideal) m c 2 t : Vec Ideal S16x1x256 .i32) (ValueIdx.ix3 g (0 : Fin 1) l)
      = (V (F := Ideal) m c main_v4 : Vec Ideal S256x1x16384 .i32)
          (ValueIdx.ix3 (⟨16 * ng.val + g.val, by have := ng.isLt; have := g.isLt; omega⟩ : Fin 256) (0 : Fin 1)
            (⟨256 * pt.val + l.val, by have := pt.isLt; have := l.isLt; omega⟩ : Fin 16384)) := by
    show V (F := Ideal) m c main_v4 (((cfg0.win 2).blk t).view.emb (ValueIdx.ix3 g (0 : Fin 1) l)) = _
    refine congrArg (V (F := Ideal) m c main_v4) (funext fun a => Fin.ext ?_)
    match a with
    | ⟨0, _⟩ => show win0_2.index t (0 : Fin 3) * 16 + 1 * g.val = 16 * ng.val + g.val; have := pt.isLt; omega
    | ⟨1, _⟩ => show win0_2.index t (1 : Fin 3) * 1 + 1 * 0 = 0; omega
    | ⟨2, _⟩ => show win0_2.index t (2 : Fin 3) * 256 + 1 * l.val = 256 * pt.val + l.val; have := pt.isLt; omega
  rw [e, V_v4]
  exact padded_apply _ _ _

/-- Window 3's block, of the second index array. -/
theorem blk3_apply (c : Dev nD) (t : Fin cfg0.N) (ng : Fin 16) (pt : Fin 64) (ht : t.val = 64 * ng.val + pt.val)
    (g : Fin 16) (l : Fin 256) :
    (iblk (F := Ideal) m c 3 t : Vec Ideal S16x1x256 .i32) (ValueIdx.ix3 g (0 : Fin 1) l)
      = Spec.padded (m ((c.tc : Thread nD τ).loc main_arg3) : Spec.IArr)
          (⟨16 * ng.val + g.val, by have := ng.isLt; have := g.isLt; omega⟩ : Fin 256)
          (⟨256 * pt.val + l.val, by have := pt.isLt; have := l.isLt; omega⟩ : Fin 16384) := by
  obtain ⟨e0, e1, e2⟩ := idx3 t
  have e : (iblk (F := Ideal) m c 3 t : Vec Ideal S16x1x256 .i32) (ValueIdx.ix3 g (0 : Fin 1) l)
      = (V (F := Ideal) m c main_v5 : Vec Ideal S256x1x16384 .i32)
          (ValueIdx.ix3 (⟨16 * ng.val + g.val, by have := ng.isLt; have := g.isLt; omega⟩ : Fin 256) (0 : Fin 1)
            (⟨256 * pt.val + l.val, by have := pt.isLt; have := l.isLt; omega⟩ : Fin 16384)) := by
    show V (F := Ideal) m c main_v5 (((cfg0.win 3).blk t).view.emb (ValueIdx.ix3 g (0 : Fin 1) l)) = _
    refine congrArg (V (F := Ideal) m c main_v5) (funext fun a => Fin.ext ?_)
    match a with
    | ⟨0, _⟩ => show win0_3.index t (0 : Fin 3) * 16 + 1 * g.val = 16 * ng.val + g.val; have := pt.isLt; omega
    | ⟨1, _⟩ => show win0_3.index t (1 : Fin 3) * 1 + 1 * 0 = 0; omega
    | ⟨2, _⟩ => show win0_3.index t (2 : Fin 3) * 256 + 1 * l.val = 256 * pt.val + l.val; have := pt.isLt; omega
  rw [e, V_v5]
  exact padded_apply _ _ _

end Cert.KernelIdeal.KIn

end
-- ==== Proof.KernelArr.lean ====
/-
  The output array the region leaves, entry by entry.

  After the point `64·ng + pt` the output block's entry `g` is the float zero plus the tiles `0 … pt` of batch
  `16·ng + g` (induction on `pt`: the group's first point starts from the zero block, every later point adds its
  tile to what the point before left). The block is written back to the array at the group's last point, the 16
  groups' blocks tile the [256, 1, 1] array, so the array's entry `b` ends at the batch's total.
-/
import proofs.«417695_j40845138985586_2_alg».proof.Proof.BodyData
import proofs.«417695_j40845138985586_2_alg».proof.Proof.PayIdeal
import proofs.«417695_j40845138985586_2_alg».proof.Proof.KernelIn
import proofs.«417695_j40845138985586_2_alg».proof.Proof.Spec

set_option maxRecDepth 16384

noncomputable section

namespace Cert.KernelIdeal.KArr

open Cert.KernelIdeal Cert.KernelIdeal.Gen
open Idealize.ShloMosaic Idealize.ShloMosaic.TcCoe Idealize.SL.Sem
open scoped BigOperators
open Cert.Proof Cert.KernelIdeal.Body

variable (m : (ℓ : Loc nD τ sig) → Buf (Elt Ideal) ℓ)

/-! ## One batch's rows, entry by entry -/

/-- Row `g` of a float block at channel `ch`, position `s` is the block's entry `(g, ch, s)`. -/
private theorem rowF_apply (x : Vec Ideal S16x2x8192 .f32) (g : Fin 16) (ch : Fin 2) (s : Fin 8192) :
    rowF x g (ValueIdx.ix3 (0 : Fin 1) ch s) = x (ValueIdx.ix3 g ch s) := by
  unfold rowF
  apply congrArg x
  funext a
  match a with
  | ⟨0, _⟩ => exact Fin.ext rfl
  | ⟨1, _⟩ => exact Fin.ext rfl
  | ⟨2, _⟩ => exact Fin.ext rfl

/-- Row `g` of a block of index words at column `l` is the block's entry `(g, 0, l)`. -/
private theorem rowI_apply (x : Vec Ideal S16x1x256 .i32) (g : Fin 16) (l : Fin 256) :
    rowI x g (ValueIdx.ix3 (0 : Fin 1) (0 : Fin 1) l) = x (ValueIdx.ix3 g (0 : Fin 1) l) := by
  unfold rowI
  apply congrArg x
  funext a
  match a with
  | ⟨0, _⟩ => exact Fin.ext rfl
  | ⟨1, _⟩ => exact Fin.ext rfl
  | ⟨2, _⟩ => exact Fin.ext rfl

/-- Entry `g` of the output block, read as a [1, 1, 1] vector at its one index. -/
private theorem rowO_apply (d : Vec Ideal S16x1x1 .f32) (g : Fin 16) :
    rowO d g i000 = d (ValueIdx.ix3 g (0 : Fin 1) (0 : Fin 1)) := by
  unfold rowO
  apply congrArg d
  funext a
  match a with
  | ⟨0, _⟩ => exact Fin.ext rfl
  | ⟨1, _⟩ => exact Fin.ext rfl
  | ⟨2, _⟩ => exact Fin.ext rfl

/-! ## One point's step at an entry -/

/-- The step over any four blocks and any accumulator block, at entry `g`: the accumulator's entry plus, over the 256
    columns and the two channels, the absolute difference of the two contractions of row `g`. -/
private theorem stepOut_at (x0 x1 : Vec Ideal S16x2x8192 .f32) (x2 x3 : Vec Ideal S16x1x256 .i32)
    (d : Vec Ideal S16x1x1 .f32) (g : Fin 16) :
    stepOut x0 x1 x2 x3 d (ValueIdx.ix3 g (0 : Fin 1) (0 : Fin 1))
      = d (ValueIdx.ix3 g (0 : Fin 1) (0 : Fin 1))
        + ∑ l : Fin 256, ∑ ch : Fin 2, Spec.eabs
            ((∑ s : Fin 8192, x0 (ValueIdx.ix3 g ch s) * Spec.hot s (x2 (ValueIdx.ix3 g (0 : Fin 1) l)))
              - (∑ s : Fin 8192, x1 (ValueIdx.ix3 g ch s) * Spec.hot s (x3 (ValueIdx.ix3 g (0 : Fin 1) l)))) := by
  show k0_pay2 (F := Ideal) (rowF x0 g) (rowF x1 g) (rowI x2 g) (rowI x3 g) (rowO d g) i000 = _
  rw [PayIdeal.pay2_apply, rowO_apply]
  simp only [rowF_apply, rowI_apply]

/-- The step at the point `64·ng + pt`, entry `g`: the entry of the block the step starts from, plus tile `pt` of
    batch `16·ng + g`. -/
private theorem stepOut_apply (c : Dev nD) (t : Fin cfg0.N) (ng : Fin 16) (pt : Fin 64) (ht : t.val = 64 * ng.val + pt.val)
    (d : Vec Ideal S16x1x1 .f32) (g : Fin 16) :
    stepOut (iblk (F := Ideal) m c 0 t) (iblk (F := Ideal) m c 1 t) (iblk (F := Ideal) m c 2 t) (iblk (F := Ideal) m c 3 t) d
        (ValueIdx.ix3 g (0 : Fin 1) (0 : Fin 1))
      = d (ValueIdx.ix3 g (0 : Fin 1) (0 : Fin 1))
        + Spec.tileLoss (m ((c.tc : Thread nD τ).loc main_arg0)) (m ((c.tc : Thread nD τ).loc main_arg1)) (m ((c.tc : Thread nD τ).loc main_arg2)) (m ((c.tc : Thread nD τ).loc main_arg3))
            (⟨16 * ng.val + g.val, by have := ng.isLt; have := g.isLt; omega⟩ : Fin 256) pt := by
  refine (stepOut_at (iblk (F := Ideal) m c 0 t) (iblk (F := Ideal) m c 1 t) (iblk (F := Ideal) m c 2 t) (iblk (F := Ideal) m c 3 t) d g).trans ?_
  unfold Spec.tileLoss Spec.colTerm Spec.hotSel
  refine congrArg (HAdd.hAdd _) ?_
  refine Finset.sum_congr rfl fun l _ => Finset.sum_congr rfl fun ch _ => ?_
  rw [KIn.blk2_apply m c t ng pt ht g l, KIn.blk3_apply m c t ng pt ht g l]
  refine congrArg Spec.eabs (congrArg₂ (fun a b : EReal => a - b) ?_ ?_)
  · exact Finset.sum_congr rfl fun s _ => by rw [KIn.blk0_apply m c t ng pt ht g ch s]
  · exact Finset.sum_congr rfl fun s _ => by rw [KIn.blk1_apply m c t ng pt ht g ch s]

/-! ## The accumulator along a group -/

/-- The block after a position depends on the position's number only. -/
private theorem outsAt_congr (c : Dev nD) (k k' : ℕ) (hk : k < cfg0.N) (hk' : k' < cfg0.N) (e : k = k') :
    outsAt (F := Ideal) m c k hk = outsAt (F := Ideal) m c k' hk' := by
  subst e; rfl

/-- The accumulator's entry `g` after the point `64·ng + n`, by induction on `n`. -/
private theorem outsAt_aux (c : Dev nD) (ng : Fin 16) (g : Fin 16) :
    ∀ (n : ℕ) (_ : n < 64) (hn : 64 * ng.val + n < cfg0.N),
      (outsAt (F := Ideal) m c (64 * ng.val + n) hn) (ValueIdx.ix3 g (0 : Fin 1) (0 : Fin 1))
        = FloatOps.ofBits (F := Ideal) .f32 0x00000000#32
          + ∑ q ∈ Finset.range (n + 1),
              Spec.tileLossN (m ((c.tc : Thread nD τ).loc main_arg0)) (m ((c.tc : Thread nD τ).loc main_arg1)) (m ((c.tc : Thread nD τ).loc main_arg2)) (m ((c.tc : Thread nD τ).loc main_arg3))
                (⟨16 * ng.val + g.val, by have := ng.isLt; have := g.isLt; omega⟩ : Fin 256) q
  | 0, h64, hn => by
    have hA := outsAt_A (F := Ideal) m c ⟨64 * ng.val + 0, hn⟩ (by show (64 * ng.val + 0) % 64 = 0; omega)
    rw [show outsAt (F := Ideal) m c (64 * ng.val + 0) hn = _ from hA,
      stepOut_apply m c ⟨64 * ng.val + 0, hn⟩ ng ⟨0, h64⟩ rfl, PayIdeal.pay1_apply,
      Finset.sum_range_succ, Finset.sum_range_zero, zero_add]
    unfold Spec.tileLossN
    rw [dif_pos h64]
  | n + 1, h64, hn => by
    have hB := outsAt_B (F := Ideal) m c ⟨64 * ng.val + (n + 1), hn⟩ (by show ¬(64 * ng.val + (n + 1)) % 64 = 0; omega)
    have ih := outsAt_aux c ng g n (by omega) (by omega)
    rw [show outsAt (F := Ideal) m c (64 * ng.val + (n + 1)) hn = _ from hB,
      stepOut_apply m c ⟨64 * ng.val + (n + 1), hn⟩ ng ⟨n + 1, h64⟩ rfl,
      outsAt_congr m c _ (64 * ng.val + n) _ (by omega) (by show 64 * ng.val + (n + 1) - 1 = 64 * ng.val + n; omega),
      ih, Finset.sum_range_succ _ (n + 1), add_assoc]
    congr 2
    unfold Spec.tileLossN
    rw [dif_pos h64]

/-- The accumulator after a point: the float zero plus the batch's tiles up to this point's. -/
theorem outsAt_apply (c : Dev nD) (ng : Fin 16) (pt : Fin 64) (hn : 64 * ng.val + pt.val < cfg0.N) (g : Fin 16) :
    (outsAt (F := Ideal) m c (64 * ng.val + pt.val) hn) (ValueIdx.ix3 g (0 : Fin 1) (0 : Fin 1))
      = FloatOps.ofBits (F := Ideal) .f32 0x00000000#32
        + ∑ q ∈ Finset.range (pt.val + 1),
            Spec.tileLossN (m ((c.tc : Thread nD τ).loc main_arg0)) (m ((c.tc : Thread nD τ).loc main_arg1)) (m ((c.tc : Thread nD τ).loc main_arg2)) (m ((c.tc : Thread nD τ).loc main_arg3))
              (⟨16 * ng.val + g.val, by have := ng.isLt; have := g.isLt; omega⟩ : Fin 256) q :=
  outsAt_aux m c ng g pt.val pt.isLt hn

/-! ## The block a group's last point writes back -/

/-- After a group's last point the accumulator's entry `g` is the batch's total: the 64 tiles are all of them. -/
private theorem outsAt_last (c : Dev nD) (ng : Fin 16) (hn : 64 * ng.val + 63 < cfg0.N) (g : Fin 16) :
    (outsAt (F := Ideal) m c (64 * ng.val + 63) hn) (ValueIdx.ix3 g (0 : Fin 1) (0 : Fin 1))
      = Spec.rowTotal (m ((c.tc : Thread nD τ).loc main_arg0)) (m ((c.tc : Thread nD τ).loc main_arg1)) (m ((c.tc : Thread nD τ).loc main_arg2)) (m ((c.tc : Thread nD τ).loc main_arg3))
          (⟨16 * ng.val + g.val, by have := ng.isLt; have := g.isLt; omega⟩ : Fin 256) := by
  refine (outsAt_apply m c ng ⟨63, by omega⟩ hn g).trans ?_
  unfold Spec.rowTotal
  refine congrArg (HAdd.hAdd _) ?_
  show ∑ q ∈ Finset.range 64, Spec.tileLossN (m ((c.tc : Thread nD τ).loc main_arg0)) (m ((c.tc : Thread nD τ).loc main_arg1)) (m ((c.tc : Thread nD τ).loc main_arg2)) (m ((c.tc : Thread nD τ).loc main_arg3))
        (⟨16 * ng.val + g.val, by have := ng.isLt; have := g.isLt; omega⟩ : Fin 256) q = _
  rw [← Fin.sum_univ_eq_sum_range]
  refine Finset.sum_congr rfl fun pt _ => ?_
  unfold Spec.tileLossN
  rw [dif_pos pt.isLt]

/-- The same at a point given by its number `64·ng + 63`, an index of the block given by its first coordinate, and a
    batch given by its number. -/
private theorem outsAt_last_at (c : Dev nD) (t : Fin cfg0.N) (ng g : Fin 16) (ht : t.val = 64 * ng.val + 63)
    (y : S16x1x1.Idx) (hy : (y 0).val = g.val) (b : Fin 256) (hb : b.val = 16 * ng.val + g.val) :
    (outsAt (F := Ideal) m c t.val t.isLt) y = Spec.rowTotal (m ((c.tc : Thread nD τ).loc main_arg0)) (m ((c.tc : Thread nD τ).loc main_arg1)) (m ((c.tc : Thread nD τ).loc main_arg2)) (m ((c.tc : Thread nD τ).loc main_arg3)) b := by
  have ey : y = ValueIdx.ix3 g (0 : Fin 1) (0 : Fin 1) := by
    funext a
    match a with
    | ⟨0, _⟩ => exact Fin.ext hy
    | ⟨1, _⟩ => exact Fin.ext (by have h : (y 1).val < 1 := (y 1).isLt; show (y 1).val = 0; omega)
    | ⟨2, _⟩ => exact Fin.ext (by have h : (y 2).val < 1 := (y 2).isLt; show (y 2).val = 0; omega)
  have eb : b = (⟨16 * ng.val + g.val, by have := ng.isLt; have := g.isLt; omega⟩ : Fin 256) := Fin.ext hb
  rw [ey, eb, outsAt_congr m c t.val (64 * ng.val + 63) t.isLt (ht ▸ t.isLt) ht]
  exact outsAt_last m c ng _ g

/-! ## From the blocks to the array -/

/-- The batch an index of the [256, 1, 1] array stands for. -/
private abbrev rowOf (y : S256x1x1.Idx) : Fin 256 := ⟨(y 0).val, (y 0).isLt⟩

/-- What the output array ends holding: at each index its batch's total. -/
private abbrev G (c : Dev nD) : Vec Ideal S256x1x1 .f32 :=
  fun y => Spec.rowTotal (m ((c.tc : Thread nD τ).loc main_arg0)) (m ((c.tc : Thread nD τ).loc main_arg1)) (m ((c.tc : Thread nD τ).loc main_arg2)) (m ((c.tc : Thread nD τ).loc main_arg3)) (rowOf y)

/-- The output window's index map, decided over the grid: the block index is the group's number on the first axis
    and zero on the other two. -/
private theorem idx_facts : ∀ t : Fin cfg0.N, win0_4.index t (0 : Fin 3) = t.val / 64
    ∧ win0_4.index t (1 : Fin 3) = 0 ∧ win0_4.index t (2 : Fin 3) = 0 :=
  (by decide +kernel : ∀ t : Fin grid0.N, _)

/-- The grid has 1024 points. -/
private theorem N_eq : cfg0.N = 1024 := by decide

/-- What a group's last point writes back is its block of `G`. -/
private theorem flushed_eq (c : Dev nD) (t : Fin cfg0.N) (hf : (cfg0.win 4).flush t = true) :
    (dats (F := Ideal) m 0 c).flushed 4 t = ((cfg0.win 4).blk t).view.read (Elt Ideal) (G m c) := by
  show (cfg0.win 4).cut (grid0.coords t) ((dats (F := Ideal) m 0 c).after 4 t) = _
  rw [Body.after4]
  have h63 : t.val % 64 = 63 := (flush0_4 t).mp hf
  have hN : t.val < 1024 := N_eq ▸ t.isLt
  obtain ⟨e0, e1, e2⟩ := idx_facts t
  funext j
  have hj0 : (j 0).val < 16 := (j 0).isLt
  show (outsAt (F := Ideal) m c t.val t.isLt) ((cfg0.win 4).xinj (grid0.coords t) j)
    = Spec.rowTotal (m ((c.tc : Thread nD τ).loc main_arg0)) (m ((c.tc : Thread nD τ).loc main_arg1)) (m ((c.tc : Thread nD τ).loc main_arg2)) (m ((c.tc : Thread nD τ).loc main_arg3))
        (rowOf (((cfg0.win 4).blk t).view.emb j))
  refine outsAt_last_at m c t ⟨t.val / 64, by omega⟩ ⟨(j 0).val, hj0⟩ (by show t.val = 64 * (t.val / 64) + 63; omega) _ rfl _ ?_
  show win0_4.index t (0 : Fin 3) * 16 + 1 * (j 0).val = 16 * (t.val / 64) + (j 0).val
  omega

/-- An index of the array is in point `t`'s block iff each coordinate is in the block's range on its axis. -/
private theorem mem_blk (t : Fin cfg0.N) (i : S256x1x1.Idx) :
    i ∈ ((cfg0.win 4).blk t).view.set ↔ ∀ a : Fin 3, win0_4.index t a * S16x1x1.size a ≤ (i a).val ∧ (i a).val < win0_4.index t a * S16x1x1.size a + S16x1x1.size a := by
  show i ∈ ((View.whole main_v6).slice (win0_4.rect t)).set ↔ _
  rw [View.set_slice_whole, Rect.mem_set_unit]
  exact Iff.rfl

/-- Every index of the array is in the block some group's last point writes back: row `r` in group `r / 16`'s. -/
private theorem cover (i : S256x1x1.Idx) :
    ∃ t : Fin cfg0.N, (cfg0.win 4).flush t = true ∧ i ∈ ((cfg0.win 4).blk t).view.set := by
  have hi0 : (i 0).val < 256 := (i 0).isLt
  have hi1 : (i 1).val < 1 := (i 1).isLt
  have hi2 : (i 2).val < 1 := (i 2).isLt
  obtain ⟨t, ht⟩ : ∃ t : Fin cfg0.N, t.val = 64 * ((i 0).val / 16) + 63 :=
    ⟨⟨64 * ((i 0).val / 16) + 63, by rw [N_eq]; omega⟩, rfl⟩
  obtain ⟨e0, e1, e2⟩ := idx_facts t
  refine ⟨t, (flush0_4 t).mpr (by omega), ?_⟩
  rw [mem_blk]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- The output array after the region: entry `b` is batch `b`'s total. -/
theorem arrAt4_apply (c : Dev nD) (b : Fin 256) :
    ((dats (F := Ideal) m 0 c).arrAt 4 cfg0.N : Vec Ideal S256x1x1 .f32) (ValueIdx.ix3 b (0 : Fin 1) (0 : Fin 1))
      = Spec.rowTotal (m ((c.tc : Thread nD τ).loc main_arg0)) (m ((c.tc : Thread nD τ).loc main_arg1)) (m ((c.tc : Thread nD τ).loc main_arg2)) (m ((c.tc : Thread nD τ).loc main_arg3)) b := by
  have h := (dats (F := Ideal) m 0 c).arrAt_eq_of_cover 4 (G m c) (fun t hf => flushed_eq m c t hf) cover
  exact congrFun h (ValueIdx.ix3 b (0 : Fin 1) (0 : Fin 1))

end Cert.KernelIdeal.KArr

end
-- ==== Proof.KernelRun.lean ====
/-
  The idealized kernel's run: its result is the specification's number in the kernel's grouping.

  After the region the host sums the [256, 1, 1] output array into a scalar (the float zero plus the sum of all its
  entries) and divides by the float 2097152. The region's array is the one the proof data name, every argument array
  ends as launched.
-/
import proofs.«417695_j40845138985586_2_alg».proof.Proof.KernelArr
import Idealize.ShloMosaic.Lib.StableHlo.Run
import Idealize.ShloMosaic.Lib.ValueIdx
import Idealize.ShloMosaic.PureOps.Ideal.Laws

set_option maxRecDepth 16384

noncomputable section

namespace Cert.KernelIdeal.KRun

open Cert.KernelIdeal Cert.KernelIdeal.Gen
open Idealize.ShloMosaic Idealize.ShloMosaic.TcCoe Idealize.SL.Sem
open scoped BigOperators
open Cert.Proof Cert.KernelIdeal.Body

section Tail

variable (m : (ℓ : Loc nD τ sig) → Buf (Elt Ideal) ℓ)

/-- The index set of the [256, 1, 1] array is its batch axis: each unit axis carries the coordinate zero only. -/
private def batchEquiv : S256x1x1.Idx ≃ Fin 256 where
  toFun j := j 0
  invFun b := ValueIdx.ix3 b (0 : Fin 1) (0 : Fin 1)
  left_inv j := by
    funext a
    match a with
    | ⟨0, _⟩ => rfl
    | ⟨1, _⟩ => exact Fin.ext (by have : (j 1).val < 1 := (j 1).isLt; show 0 = (j 1).val; omega)
    | ⟨2, _⟩ => exact Fin.ext (by have : (j 2).val < 1 := (j 2).isLt; show 0 = (j 2).val; omega)
  right_inv _ := rfl

/-- The host lines after the region, read at the scalar's index: the float zero plus the sum of the array's 256
    entries, divided (the host's division) by the second constant. -/
private theorem tail_value (y : (⟨S256x1x1, .f32⟩ : BufTy).Contents (Elt Ideal)) (r : Fin 256 → EReal)
    (hy : ∀ b : Fin 256, y (ValueIdx.ix3 b (0 : Fin 1) (0 : Fin 1)) = r b) (i : S_.Idx) :
    (Host.divf (Host.reduceAdd y (constant (F := Ideal) S_ .f32 0x00000000#32) reducesTo_S256x1x1_S_d0_1_2 h_S_)
        (constant (F := Ideal) S_ .f32 0x4A000000#32) : (⟨S_, .f32⟩ : BufTy).Contents (Elt Ideal)) i
      = FloatOps.hostDivf (F := Ideal) (φ := .f32)
          (FloatOps.ofBits (F := Ideal) .f32 0x00000000#32 + ∑ b : Fin 256, r b)
          (FloatOps.ofBits (F := Ideal) .f32 0x4A000000#32) := by
  have hred : Host.reduceAdd y (constant (F := Ideal) S_ .f32 0x00000000#32) reducesTo_S256x1x1_S_d0_1_2 h_S_ i
      = FloatOps.ofBits (F := Ideal) .f32 0x00000000#32 + ∑ b : Fin 256, r b := by
    have h1 : Host.reduceAdd y (constant (F := Ideal) S_ .f32 0x00000000#32) reducesTo_S256x1x1_S_d0_1_2 h_S_ i
        = (constant (F := Ideal) S_ .f32 0x00000000#32) (Shape.Idx.first h_S_) + ∑ j : S256x1x1.Idx, y j := by
      simp only [Host.reduceAdd, Ideal.hostReduceAdd_def]
      exact Ideal.hostReduceAdd_total reducesTo_S256x1x1_S_d0_1_2 (fun b => b.elim0) y _ i
    rw [h1]
    congr 1
    exact Fintype.sum_equiv batchEquiv _ _ (fun j => by rw [← hy (batchEquiv j)]; exact congrArg y (batchEquiv.left_inv j).symm)
  exact congrArg (fun z => FloatOps.hostDivf (F := Ideal) (φ := .f32) z (FloatOps.ofBits (F := Ideal) .f32 0x4A000000#32)) hred

/-- What the host lines after the region leave in the result buffer. -/
private theorem tail_v8 (c : Dev nD) :
    Pipeline.afterTail₀ cfgs (dats (F := Ideal) m) 0 (V0 m) [hostOps1] c main_v8
      = Spec.kernelResult (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v8) = _
  after_results
  have hA : Pipeline.withArrays (cfgs 0).spec c (V0 m c) (fun w => (dats (F := Ideal) m 0 c).arrAt w (cfgs 0).N) (Proc.devRef .tc main_v6)
      = (dats (F := Ideal) m 0 c).arrAt 4 cfg0.N :=
    Pipeline.withArrays_arr spec0 launch0.win.arr_inj c _ _ 4
  rw [hA]
  funext i
  exact tail_value _ _ (KArr.arrAt4_apply m c) i

end Tail

/-- Every weakly fair execution of the idealized kernel terminates with its result at `Spec.kernelResult` of the
    arguments, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Spec.kernelResult (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (Body.run_main m ρ)

end Cert.KernelIdeal.KRun

end
-- ==== Proof.OneHot.lean ====
/-
  The one-hot selection law on the extended reals.

  A gather written as a contraction with a 0/1 column: for a family `x` over a finite index type and a 0/1 weight
  that is `1` exactly at one index `j`, the weighted sum `∑ s, x s * w s` is `x j`; with a weight that is `0`
  everywhere the sum is `0`. Both hold for every extended real, the infinities included, because `a * 0 = 0` and
  `a * 1 = a` there and a sum of zeros is zero: no finiteness is needed.
-/
import Mathlib.Data.EReal.Basic
import Mathlib.Algebra.BigOperators.Group.Finset.Basic
import Mathlib.Algebra.BigOperators.Ring.Finset

open scoped BigOperators

namespace Cert.Proof.OneHot

/-- A sum against the indicator of one index picks the entry at that index. -/
theorem sum_mul_indicator {ι : Type} [Fintype ι] [DecidableEq ι] (x : ι → EReal) (j : ι) :
    (∑ s, x s * (if s = j then (1 : EReal) else 0)) = x j := by
  rw [Finset.sum_eq_single j]
  · rw [if_pos rfl, mul_one]
  · intro s _ hs; rw [if_neg hs, mul_zero]
  · intro h; exact absurd (Finset.mem_univ j) h

/-- A sum against the zero weight is zero. -/
theorem sum_mul_zero {ι : Type} [Fintype ι] (x : ι → EReal) :
    (∑ s, x s * (0 : EReal)) = 0 := by
  simp only [mul_zero, Finset.sum_const_zero]

end Cert.Proof.OneHot
-- ==== Proof.Bridge.lean ====
/-
  The kernel's grouping of the sum is the reference's.

  Under the range condition on both index arrays: a word below 8192 is the word of exactly one position, so the
  contraction with the 0/1 column picks that position's entry; the padding word 8192 is the word of no position, so
  both contractions there are zero and the padded column contributes `|0 - 0| = 0`; 64 tiles of 256 columns are the
  16384 padded columns, of which the first 16383 are the reference's pairs; and the float zero is `0`.
  Only commutativity and associativity of the sum, `a · 0 = 0` and `a · 1 = a` are used: they hold on all extended reals.
-/
import proofs.«417695_j40845138985586_2_alg».proof.Proof.Spec
import proofs.«417695_j40845138985586_2_alg».proof.Proof.OneHot
import Idealize.ShloMosaic.PureOps.Ideal.Laws

noncomputable section

open Idealize.ShloMosaic
open scoped BigOperators

namespace Cert.Proof.Bridge

open Cert.Proof.Spec

/-- A word below 8192 is the 32-bit word of a position exactly when that position is the word's own. -/
private theorem ofNat_eq_iff (s : Fin 8192) (w : BitVec 32) (hw : w.toNat < 8192) :
    BitVec.ofNat 32 s.val = w ↔ s = pos w := by
  have hs := s.isLt
  constructor
  · intro h
    apply Fin.ext
    rw [pos_val_of_lt hw, ← h, BitVec.toNat_ofNat]
    exact (Nat.mod_eq_of_lt (by omega)).symm
  · intro h
    apply BitVec.eq_of_toNat_eq
    rw [BitVec.toNat_ofNat, h, pos_val_of_lt hw]
    exact Nat.mod_eq_of_lt (by omega)

/-- Against a word below 8192 the 0/1 column is the indicator of the word's position. -/
private theorem hot_of_lt (s : Fin 8192) (w : BitVec 32) (hw : w.toNat < 8192) :
    hot s w = if s = pos w then 1 else 0 := by
  unfold hot
  by_cases h : s = pos w
  · rw [if_pos h, if_pos ((ofNat_eq_iff s w hw).2 h)]
  · rw [if_neg h, if_neg (fun h' => h ((ofNat_eq_iff s w hw).1 h'))]

/-- The contraction with the column of a word below 8192 picks the entry at the word's position. -/
private theorem hotSel_of_lt (P : FArr) (b : Fin 256) (c : Fin 2) (w : BitVec 32) (hw : w.toNat < 8192) :
    hotSel P b c w = P (ValueIdx.ix3 b (pos w) c) := by
  unfold hotSel
  simp only [hot_of_lt _ w hw]
  exact OneHot.sum_mul_indicator (fun s => P (ValueIdx.ix3 b s c)) (pos w)

/-- The padding word 8192 is the word of no position: its column is zero. -/
private theorem hot_pad (s : Fin 8192) : hot s 8192#32 = 0 := by
  unfold hot
  rw [if_neg]
  intro h
  have hs := s.isLt
  have h' := congrArg BitVec.toNat h
  rw [BitVec.toNat_ofNat, BitVec.toNat_ofNat] at h'
  omega

/-- The contraction with the padding word's column is zero. -/
private theorem hotSel_pad (P : FArr) (b : Fin 256) (c : Fin 2) : hotSel P b c 8192#32 = 0 := by
  unfold hotSel
  simp only [hot_pad]
  exact OneHot.sum_mul_zero _

/-- A padded column before the last is the reference's pair term. -/
private theorem colTerm_castSucc (P T : FArr) (I J : IArr) (hI : InRange I) (hJ : InRange J)
    (b : Fin 256) (p : Fin 16383) :
    colTerm P T I J b (Fin.castSucc p) = pairTerm P T I J b p := by
  have hp : (Fin.castSucc p).val < 16383 := p.isLt
  have hI' : padded I b (Fin.castSucc p) = I (ValueIdx.ix2 b p) := by
    unfold padded; rw [dif_pos hp]; rfl
  have hJ' : padded J b (Fin.castSucc p) = J (ValueIdx.ix2 b p) := by
    unfold padded; rw [dif_pos hp]; rfl
  unfold colTerm pairTerm sel
  rw [hI', hJ']
  refine Finset.sum_congr rfl (fun c _ => ?_)
  rw [hotSel_of_lt P b c _ (hI _), hotSel_of_lt T b c _ (hJ _)]

/-- The padding column contributes `|0 - 0| = 0`. -/
private theorem colTerm_last (P T : FArr) (I J : IArr) (b : Fin 256) :
    colTerm P T I J b (Fin.last 16383) = 0 := by
  have hp : ¬ (Fin.last 16383).val < 16383 := by simp [Fin.last]
  have hI' : padded I b (Fin.last 16383) = 8192#32 := by unfold padded; rw [dif_neg hp]
  have hJ' : padded J b (Fin.last 16383) = 8192#32 := by unfold padded; rw [dif_neg hp]
  unfold colTerm
  rw [hI', hJ']
  simp only [hotSel_pad, sub_zero, eabs, neg_zero, max_self, Finset.sum_const_zero]

/-- Tile number and column within the tile, as one padded column: `(pt, l) ↦ 256 · pt + l`. -/
private def tileEquiv : Fin 64 × Fin 256 ≃ Fin 16384 where
  toFun x := ⟨256 * x.1.val + x.2.val, by have := x.1.isLt; have := x.2.isLt; omega⟩
  invFun p := (⟨p.val / 256, by have := p.isLt; omega⟩, ⟨p.val % 256, Nat.mod_lt _ (by decide)⟩)
  left_inv x := by
    rcases x with ⟨⟨a, ha⟩, ⟨l, hl⟩⟩
    simp only [Prod.mk.injEq, Fin.mk.injEq]
    constructor <;> omega
  right_inv p := by
    apply Fin.ext
    simp only
    omega

/-- 64 tiles of 256 columns are the 16384 padded columns. -/
private theorem sum_tiles (f : Fin 16384 → EReal) :
    (∑ pt : Fin 64, ∑ l : Fin 256,
        f ⟨256 * pt.val + l.val, by have := pt.isLt; have := l.isLt; omega⟩) = ∑ p : Fin 16384, f p := by
  calc _ = ∑ x : Fin 64 × Fin 256, f (tileEquiv x) :=
        (Fintype.sum_prod_type' (fun pt l => f (tileEquiv (pt, l)))).symm
    _ = _ := Fintype.sum_equiv tileEquiv _ _ (fun _ => rfl)

/-- A batch's total in the kernel's grouping is the sum of its pair terms. -/
private theorem rowTotal_eq (P T : FArr) (I J : IArr) (hI : InRange I) (hJ : InRange J) (b : Fin 256) :
    rowTotal P T I J b = ∑ p : Fin 16383, pairTerm P T I J b p := by
  unfold rowTotal
  show Ideal.ofBits .f32 0x00000000#32 + _ = _
  rw [Ideal.ofBits_zero_f32, zero_add]
  unfold tileLoss
  rw [sum_tiles (fun p => colTerm P T I J b p)]
  rw [Fin.sum_univ_castSucc (n := 16383) (fun p => colTerm P T I J b p)]
  rw [colTerm_last, add_zero]
  exact Finset.sum_congr rfl (fun p _ => colTerm_castSucc P T I J hI hJ b p)

/-- The two groupings agree when every index word is a position. -/
theorem kernelResult_eq_result (P T : FArr) (I J : IArr) (hI : InRange I) (hJ : InRange J) :
    kernelResult P T I J = result P T I J := by
  have hsum : (∑ b : Fin 256, rowTotal P T I J b) = lossSum P T I J := by
    unfold lossSum
    exact Finset.sum_congr rfl (fun b _ => rowTotal_eq P T I J hI hJ b)
  unfold kernelResult result
  rw [hsum]

end Cert.Proof.Bridge

end
-- ==== Proof.PreDecode.lean ====
/-
  The precondition read back: every float input finite (not used below) and every index word a position.

  The printed predicate is a conjunction of six "all" reductions; its last four say, of each index array, that every
  word read as a signed number is at least 0 and less than 8192. A 32-bit word with `0 ≤ toInt < 8192` has
  `toNat < 8192`.
-/
import proofs.«417695_j40845138985586_2_alg».proof.Pre_finite_inputs
import proofs.«417695_j40845138985586_2_alg».proof.Proof.Gen.Pre_finite_inputs
import proofs.«417695_j40845138985586_2_alg».proof.Proof.Spec
import Idealize.ShloMosaic.Lib.ReduceAll
import Idealize.ShloMosaic.Lib.StableHlo.Predicate
import Idealize.ShloMosaic.Lib.ValueIdx

noncomputable section

namespace Cert.Proof.PreDecode

open Idealize.ShloMosaic Cert.Proof
open Cert.Pre_finite_inputs

/-- The scalar shape has one index. -/
private instance : Subsingleton S_.Idx := ⟨fun _ _ => funext fun d => d.elim0⟩

/-- A 32-bit word that reads, signed, as a number in `[0, 8192)` reads the same unsigned. -/
private theorem toNat_lt_of_toInt {w : BitVec 32} (h0 : (0 : Int) ≤ w.toInt) (h1 : w.toInt < 8192) : w.toNat < 8192 := by
  have hw := w.isLt
  rw [BitVec.toInt_eq_toNat_cond] at h0 h1
  split at h0 <;> omega

/-- The two "all" reductions about one index array, read at a word: `0 ≤ w` and `w < 8192` signed, so `w < 8192`
    unsigned. The compared constants are broadcasts of a scalar constant, which read as the constant at every index. -/
private theorem inRange_of_alls [Cert.Pre_finite_inputs.Facts] (X : IVec S256x16383 32) (c1 c2 : IVec S_ 1)
    (hge : Host.reduce IntOp.andi
        (cmpi .sge X (broadcastInDim S256x16383 ![] Facts.bcast_S_S256x16383 (constantI S_ 32 0#32))) c1
        Facts.reducesTo_S256x16383_S_d0_1 Facts.h_S_ ValueIdx.ix0 = 1#1)
    (hlt : Host.reduce IntOp.andi
        (cmpi .slt X (broadcastInDim S256x16383 ![] Facts.bcast_S_S256x16383 (constantI S_ 32 8192#32))) c2
        Facts.reducesTo_S256x16383_S_d0_1 Facts.h_S_ ValueIdx.ix0 = 1#1)
    (j : S256x16383.Idx) : (X j).toNat < 8192 := by
  have a : IntOp.cmpi .sge (X j) 0#32 = 1#1 := Host.reduce_andi_all _ _ _ _ _ hge j
  have b : IntOp.cmpi .slt (X j) 8192#32 = 1#1 := Host.reduce_andi_all _ _ _ _ _ hlt j
  rw [IntOp.cmpi_sge] at a
  rw [IntOp.cmpi_slt] at b
  exact toNat_lt_of_toInt (by simpa using a) (by simpa using b)

/-- Under the precondition both index arrays hold positions only. -/
theorem inRange_of_pre [Cert.Pre_finite_inputs.Facts] (P T : Spec.FArr) (I J : Spec.IArr)
    (h : Cert.Pre_finite_inputs.fn (F := Ideal) P T I J = fun _ => 1#1) : Spec.InRange I ∧ Spec.InRange J := by
  have e := congrFun h ValueIdx.ix0
  dsimp only [Cert.Pre_finite_inputs.fn, Cert.Pre_finite_inputs.fn_part1] at e
  simp only [andi, IntOp.andi_eq_one] at e
  obtain ⟨⟨⟨⟨-, hI0⟩, hI1⟩, hJ0⟩, hJ1⟩ := e
  exact ⟨fun j => inRange_of_alls I _ _ hI0 hI1 j, fun j => inRange_of_alls J _ _ hJ0 hJ1 j⟩

end Cert.Proof.PreDecode

end
-- ==== Proof.LibTypedOps.lean ====
/-
  A host operation written over TYPED references (a buffer together with the equation "its type is T") is the same
  operation written over the buffers themselves: the typed form only transports the operation's values along those
  equations, and when an equation is `rfl` the transport is the identity. Stated for the four arities a straight-line
  callee uses; with them a list of typed operations is rewritten, operation by operation, to the plain list, whose
  results can then be read without any transport in the way.
-/
import Idealize.ShloMosaic.Lib.StableHlo

noncomputable section

namespace Idealize.ShloMosaic.StableHlo.TRef

open Idealize.ShloMosaic Idealize.ShloMosaic.StableHlo

variable {τ : Topo} {sig : RefSig} {Val : EltTy → Type}

/-- A typed reference whose type equation is `rfl`. -/
abbrev plain (r : Ref sig .tc) (hd : r.space ≠ .host) (hu : r.isScoped = false) : TRef sig r.ty := ⟨r, rfl, hd, hu⟩

theorem nullary_plain (y : Ref sig .tc) (hd hu) (v : y.ty.Contents Val) :
    TRef.nullary (τ := τ) (plain y hd hu) v = StableHlo.nullary y v (plain y hd hu).dev := rfl

theorem unary_plain (x y : Ref sig .tc) (hdx hux hdy huy) (f : x.ty.Contents Val → y.ty.Contents Val) :
    TRef.unary (τ := τ) (plain x hdx hux) (plain y hdy huy) f
      = StableHlo.unary x y f (plain x hdx hux).dev (plain y hdy huy).dev := rfl

theorem binary_plain (a b y : Ref sig .tc) (hda hua hdb hub hdy huy)
    (f : a.ty.Contents Val → b.ty.Contents Val → y.ty.Contents Val) :
    TRef.binary (τ := τ) (plain a hda hua) (plain b hdb hub) (plain y hdy huy) f
      = StableHlo.binary a b y f (plain a hda hua).dev (plain b hdb hub).dev (plain y hdy huy).dev := rfl

theorem ternary_plain (c a b y : Ref sig .tc) (hdc huc hda hua hdb hub hdy huy)
    (f : c.ty.Contents Val → a.ty.Contents Val → b.ty.Contents Val → y.ty.Contents Val) :
    TRef.ternary (τ := τ) (plain c hdc huc) (plain a hda hua) (plain b hdb hub) (plain y hdy huy) f
      = StableHlo.ternary c a b y f (plain c hdc huc).dev (plain a hda hua).dev (plain b hdb hub).dev (plain y hdy huy).dev := rfl

end Idealize.ShloMosaic.StableHlo.TRef

end
-- ==== Proof.RefRun.lean ====
/-
  The reference program's run.

  Its @main is a straight line of 52 host operations (the two gathers' helper calls inlined): from any memory, every
  weakly fair execution terminates with the result buffer at the last operation's value as a function of the four
  argument arrays — each operation applied to the values of the operations before it — and the arguments unchanged.

  The operations of the two inlined calls are written over typed references (a buffer with the equation "its type is
  T"); each such equation holds by computation, so each typed operation is the operation over the buffers themselves.
  Over that plain list the value of the result buffer after the line is the composition of the operations' functions
  in program order, which is what the stages `val_<buffer>` spell by name; no operation writes an argument.
-/
import proofs.«417695_j40845138985586_2_alg».proof.Proof.RunP
import proofs.«417695_j40845138985586_2_alg».proof.Proof.ReadP
import proofs.«417695_j40845138985586_2_alg».proof.Proof.LibTypedOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

section Plain

open Cert.ReferenceIdeal.ValueP Cert.ReferenceIdeal.ReadP

/-- The 52 operations, each written over the buffers themselves: a typed operation of an inlined call at the plain
    operation it is once its type equations are read as identities. -/
private abbrev opsP : List (HloOp τ sig (Elt F)) :=
  [ unary main_arg2 main_v0 (broadcastInDim S256x16383x1 ![0, 1] bcast_S256x16383_S256x16383x1_0_1 : (⟨S256x16383, .i32⟩ : BufTy).Contents (Elt F) → (⟨S256x16383x1, .i32⟩ : BufTy).Contents (Elt F)),
    nullary main_call0_c ((constantI S_ 32 0#32) : (⟨S_, .i32⟩ : BufTy).Contents (Elt F)),
    unary main_call0_c main_call0_v0 ((broadcastInDim S256x16383x1 ![] bcast_S_S256x16383x1) : (⟨S_, .i32⟩ : BufTy).Contents (Elt F) → (⟨S256x16383x1, .i32⟩ : BufTy).Contents (Elt F)),
    binary main_v0 main_call0_v0 main_call0_v1 ((cmpi .slt) : (⟨S256x16383x1, .i32⟩ : BufTy).Contents (Elt F) → (⟨S256x16383x1, .i32⟩ : BufTy).Contents (Elt F) → (⟨S256x16383x1, .i1⟩ : BufTy).Contents (Elt F)),
    nullary main_call0_c_0 ((constantI S_ 32 8192#32) : (⟨S_, .i32⟩ : BufTy).Contents (Elt F)),
    unary main_call0_c_0 main_call0_v2 ((broadcastInDim S256x16383x1 ![] bcast_S_S256x16383x1) : (⟨S_, .i32⟩ : BufTy).Contents (Elt F) → (⟨S256x16383x1, .i32⟩ : BufTy).Contents (Elt F)),
    binary main_v0 main_call0_v2 main_call0_v3 (addi : (⟨S256x16383x1, .i32⟩ : BufTy).Contents (Elt F) → (⟨S256x16383x1, .i32⟩ : BufTy).Contents (Elt F) → (⟨S256x16383x1, .i32⟩ : BufTy).Contents (Elt F)),
    ternary main_call0_v1 main_call0_v3 main_v0 main_call0_v4 (select : (⟨S256x16383x1, .i1⟩ : BufTy).Contents (Elt F) → (⟨S256x16383x1, .i32⟩ : BufTy).Contents (Elt F) → (⟨S256x16383x1, .i32⟩ : BufTy).Contents (Elt F) → (⟨S256x16383x1, .i32⟩ : BufTy).Contents (Elt F)),
    nullary main_call0_c_1 ((constantI S1 32 8191#32) : (⟨S1, .i32⟩ : BufTy).Contents (Elt F)),
    nullary main_call0_c_2 ((constantI S_ 32 0#32) : (⟨S_, .i32⟩ : BufTy).Contents (Elt F)),
    unary main_call0_c_2 main_call0_v5 ((broadcastInDim S256x16383x1 ![] bcast_S_S256x16383x1) : (⟨S_, .i32⟩ : BufTy).Contents (Elt F) → (⟨S256x16383x1, .i32⟩ : BufTy).Contents (Elt F)),
    binary main_call0_v4 main_call0_v5 main_call0_v6 ((cmpi .sge) : (⟨S256x16383x1, .i32⟩ : BufTy).Contents (Elt F) → (⟨S256x16383x1, .i32⟩ : BufTy).Contents (Elt F) → (⟨S256x16383x1, .i1⟩ : BufTy).Contents (Elt F)),
    unary main_call0_c_1 main_call0_v7 ((broadcastInDim S1x1x1 ![2] bcast_S1_S1x1x1_2) : (⟨S1, .i32⟩ : BufTy).Contents (Elt F) → (⟨S1x1x1, .i32⟩ : BufTy).Contents (Elt F)),
    unary main_call0_v7 main_call0_v8 ((broadcastInDim S256x16383x1 ![0, 1, 2] bcast_S1x1x1_S256x16383x1_0_1_2) : (⟨S1x1x1, .i32⟩ : BufTy).Contents (Elt F) → (⟨S256x16383x1, .i32⟩ : BufTy).Contents (Elt F)),
    binary main_call0_v4 main_call0_v8 main_call0_v9 ((cmpi .sle) : (⟨S256x16383x1, .i32⟩ : BufTy).Contents (Elt F) → (⟨S256x16383x1, .i32⟩ : BufTy).Contents (Elt F) → (⟨S256x16383x1, .i1⟩ : BufTy).Contents (Elt F)),
    binary main_call0_v6 main_call0_v9 main_call0_v10 (andi : (⟨S256x16383x1, .i1⟩ : BufTy).Contents (Elt F) → (⟨S256x16383x1, .i1⟩ : BufTy).Contents (Elt F) → (⟨S256x16383x1, .i1⟩ : BufTy).Contents (Elt F)),
    nullary main_call0_c_3 ((constantI S_ 1 1#1) : (⟨S_, .i1⟩ : BufTy).Contents (Elt F)),
    binary main_call0_v10 main_call0_c_3 main_call0_v11 ((fun x v => Host.reduce IntOp.andi x v reducesTo_S256x16383x1_S256x16383_d2 h_S_) : (⟨S256x16383x1, .i1⟩ : BufTy).Contents (Elt F) → (⟨S_, .i1⟩ : BufTy).Contents (Elt F) → (⟨S256x16383, .i1⟩ : BufTy).Contents (Elt F)),
    binary main_arg0 main_call0_v4 main_call0_v12 ((fun x i => Host.gather gather_S256x8192x2_S256x16383x1_S256x16383x2_2_1_0_0_1_2_112 x i) : (⟨S256x8192x2, .f32⟩ : BufTy).Contents (Elt F) → (⟨S256x16383x1, .i32⟩ : BufTy).Contents (Elt F) → (⟨S256x16383x2, .f32⟩ : BufTy).Contents (Elt F)),
    unary main_call0_v11 main_call0_v13 ((broadcastInDim S256x16383x2 ![0, 1] bcast_S256x16383_S256x16383x2_0_1) : (⟨S256x16383, .i1⟩ : BufTy).Contents (Elt F) → (⟨S256x16383x2, .i1⟩ : BufTy).Contents (Elt F)),
    nullary main_call0_cst ((constant S_ .f32 0x7FC00000#32) : (⟨S_, .f32⟩ : BufTy).Contents (Elt F)),
    unary main_call0_cst main_call0_v14 ((broadcastInDim S256x16383x2 ![] bcast_S_S256x16383x2) : (⟨S_, .f32⟩ : BufTy).Contents (Elt F) → (⟨S256x16383x2, .f32⟩ : BufTy).Contents (Elt F)),
    ternary main_call0_v13 main_call0_v12 main_call0_v14 main_v1 (select : (⟨S256x16383x2, .i1⟩ : BufTy).Contents (Elt F) → (⟨S256x16383x2, .f32⟩ : BufTy).Contents (Elt F) → (⟨S256x16383x2, .f32⟩ : BufTy).Contents (Elt F) → (⟨S256x16383x2, .f32⟩ : BufTy).Contents (Elt F)),
    unary main_arg3 main_v2 (broadcastInDim S256x16383x1 ![0, 1] bcast_S256x16383_S256x16383x1_0_1 : (⟨S256x16383, .i32⟩ : BufTy).Contents (Elt F) → (⟨S256x16383x1, .i32⟩ : BufTy).Contents (Elt F)),
    nullary main_call1_c ((constantI S_ 32 0#32) : (⟨S_, .i32⟩ : BufTy).Contents (Elt F)),
    unary main_call1_c main_call1_v0 ((broadcastInDim S256x16383x1 ![] bcast_S_S256x16383x1) : (⟨S_, .i32⟩ : BufTy).Contents (Elt F) → (⟨S256x16383x1, .i32⟩ : BufTy).Contents (Elt F)),
    binary main_v2 main_call1_v0 main_call1_v1 ((cmpi .slt) : (⟨S256x16383x1, .i32⟩ : BufTy).Contents (Elt F) → (⟨S256x16383x1, .i32⟩ : BufTy).Contents (Elt F) → (⟨S256x16383x1, .i1⟩ : BufTy).Contents (Elt F)),
    nullary main_call1_c_0 ((constantI S_ 32 8192#32) : (⟨S_, .i32⟩ : BufTy).Contents (Elt F)),
    unary main_call1_c_0 main_call1_v2 ((broadcastInDim S256x16383x1 ![] bcast_S_S256x16383x1) : (⟨S_, .i32⟩ : BufTy).Contents (Elt F) → (⟨S256x16383x1, .i32⟩ : BufTy).Contents (Elt F)),
    binary main_v2 main_call1_v2 main_call1_v3 (addi : (⟨S256x16383x1, .i32⟩ : BufTy).Contents (Elt F) → (⟨S256x16383x1, .i32⟩ : BufTy).Contents (Elt F) → (⟨S256x16383x1, .i32⟩ : BufTy).Contents (Elt F)),
    ternary main_call1_v1 main_call1_v3 main_v2 main_call1_v4 (select : (⟨S256x16383x1, .i1⟩ : BufTy).Contents (Elt F) → (⟨S256x16383x1, .i32⟩ : BufTy).Contents (Elt F) → (⟨S256x16383x1, .i32⟩ : BufTy).Contents (Elt F) → (⟨S256x16383x1, .i32⟩ : BufTy).Contents (Elt F)),
    nullary main_call1_c_1 ((constantI S1 32 8191#32) : (⟨S1, .i32⟩ : BufTy).Contents (Elt F)),
    nullary main_call1_c_2 ((constantI S_ 32 0#32) : (⟨S_, .i32⟩ : BufTy).Contents (Elt F)),
    unary main_call1_c_2 main_call1_v5 ((broadcastInDim S256x16383x1 ![] bcast_S_S256x16383x1) : (⟨S_, .i32⟩ : BufTy).Contents (Elt F) → (⟨S256x16383x1, .i32⟩ : BufTy).Contents (Elt F)),
    binary main_call1_v4 main_call1_v5 main_call1_v6 ((cmpi .sge) : (⟨S256x16383x1, .i32⟩ : BufTy).Contents (Elt F) → (⟨S256x16383x1, .i32⟩ : BufTy).Contents (Elt F) → (⟨S256x16383x1, .i1⟩ : BufTy).Contents (Elt F)),
    unary main_call1_c_1 main_call1_v7 ((broadcastInDim S1x1x1 ![2] bcast_S1_S1x1x1_2) : (⟨S1, .i32⟩ : BufTy).Contents (Elt F) → (⟨S1x1x1, .i32⟩ : BufTy).Contents (Elt F)),
    unary main_call1_v7 main_call1_v8 ((broadcastInDim S256x16383x1 ![0, 1, 2] bcast_S1x1x1_S256x16383x1_0_1_2) : (⟨S1x1x1, .i32⟩ : BufTy).Contents (Elt F) → (⟨S256x16383x1, .i32⟩ : BufTy).Contents (Elt F)),
    binary main_call1_v4 main_call1_v8 main_call1_v9 ((cmpi .sle) : (⟨S256x16383x1, .i32⟩ : BufTy).Contents (Elt F) → (⟨S256x16383x1, .i32⟩ : BufTy).Contents (Elt F) → (⟨S256x16383x1, .i1⟩ : BufTy).Contents (Elt F)),
    binary main_call1_v6 main_call1_v9 main_call1_v10 (andi : (⟨S256x16383x1, .i1⟩ : BufTy).Contents (Elt F) → (⟨S256x16383x1, .i1⟩ : BufTy).Contents (Elt F) → (⟨S256x16383x1, .i1⟩ : BufTy).Contents (Elt F)),
    nullary main_call1_c_3 ((constantI S_ 1 1#1) : (⟨S_, .i1⟩ : BufTy).Contents (Elt F)),
    binary main_call1_v10 main_call1_c_3 main_call1_v11 ((fun x v => Host.reduce IntOp.andi x v reducesTo_S256x16383x1_S256x16383_d2 h_S_) : (⟨S256x16383x1, .i1⟩ : BufTy).Contents (Elt F) → (⟨S_, .i1⟩ : BufTy).Contents (Elt F) → (⟨S256x16383, .i1⟩ : BufTy).Contents (Elt F)),
    binary main_arg1 main_call1_v4 main_call1_v12 ((fun x i => Host.gather gather_S256x8192x2_S256x16383x1_S256x16383x2_2_1_0_0_1_2_112 x i) : (⟨S256x8192x2, .f32⟩ : BufTy).Contents (Elt F) → (⟨S256x16383x1, .i32⟩ : BufTy).Contents (Elt F) → (⟨S256x16383x2, .f32⟩ : BufTy).Contents (Elt F)),
    unary main_call1_v11 main_call1_v13 ((broadcastInDim S256x16383x2 ![0, 1] bcast_S256x16383_S256x16383x2_0_1) : (⟨S256x16383, .i1⟩ : BufTy).Contents (Elt F) → (⟨S256x16383x2, .i1⟩ : BufTy).Contents (Elt F)),
    nullary main_call1_cst ((constant S_ .f32 0x7FC00000#32) : (⟨S_, .f32⟩ : BufTy).Contents (Elt F)),
    unary main_call1_cst main_call1_v14 ((broadcastInDim S256x16383x2 ![] bcast_S_S256x16383x2) : (⟨S_, .f32⟩ : BufTy).Contents (Elt F) → (⟨S256x16383x2, .f32⟩ : BufTy).Contents (Elt F)),
    ternary main_call1_v13 main_call1_v12 main_call1_v14 main_v3 (select : (⟨S256x16383x2, .i1⟩ : BufTy).Contents (Elt F) → (⟨S256x16383x2, .f32⟩ : BufTy).Contents (Elt F) → (⟨S256x16383x2, .f32⟩ : BufTy).Contents (Elt F) → (⟨S256x16383x2, .f32⟩ : BufTy).Contents (Elt F)),
    binary main_v1 main_v3 main_v4 (subf : (⟨S256x16383x2, .f32⟩ : BufTy).Contents (Elt F) → (⟨S256x16383x2, .f32⟩ : BufTy).Contents (Elt F) → (⟨S256x16383x2, .f32⟩ : BufTy).Contents (Elt F)),
    unary main_v4 main_v5 (Host.absf : (⟨S256x16383x2, .f32⟩ : BufTy).Contents (Elt F) → (⟨S256x16383x2, .f32⟩ : BufTy).Contents (Elt F)),
    nullary main_cst (constant S_ .f32 0x00000000#32),
    binary main_v5 main_cst main_v6 ((fun x v => Host.reduceAdd x v reducesTo_S256x16383x2_S_d0_1_2 h_S_) : (⟨S256x16383x2, .f32⟩ : BufTy).Contents (Elt F) → (⟨S_, .f32⟩ : BufTy).Contents (Elt F) → (⟨S_, .f32⟩ : BufTy).Contents (Elt F)),
    nullary main_cst_0 (constant S_ .f32 0x4A000000#32),
    binary main_v6 main_cst_0 main_v7 (Host.divf : (⟨S_, .f32⟩ : BufTy).Contents (Elt F) → (⟨S_, .f32⟩ : BufTy).Contents (Elt F) → (⟨S_, .f32⟩ : BufTy).Contents (Elt F)) ]

/-- The printed list is the plain list, operation by operation: an operation of @main itself is already plain, and a
    typed operation whose type equations hold by computation is its plain form. -/
private theorem ops_eq : (ops : List (HloOp τ sig (Elt F))) = opsP :=
  congrArg₂ List.cons rfl <|
  congrArg₂ List.cons (TRef.nullary_plain main_call0_c (by decide) rfl _) <|
  congrArg₂ List.cons (TRef.unary_plain main_call0_c main_call0_v0 (by decide) rfl (by decide) rfl _) <|
  congrArg₂ List.cons (TRef.binary_plain main_v0 main_call0_v0 main_call0_v1 (by decide) rfl (by decide) rfl (by decide) rfl _) <|
  congrArg₂ List.cons (TRef.nullary_plain main_call0_c_0 (by decide) rfl _) <|
  congrArg₂ List.cons (TRef.unary_plain main_call0_c_0 main_call0_v2 (by decide) rfl (by decide) rfl _) <|
  congrArg₂ List.cons (TRef.binary_plain main_v0 main_call0_v2 main_call0_v3 (by decide) rfl (by decide) rfl (by decide) rfl _) <|
  congrArg₂ List.cons (TRef.ternary_plain main_call0_v1 main_call0_v3 main_v0 main_call0_v4 (by decide) rfl (by decide) rfl (by decide) rfl (by decide) rfl _) <|
  congrArg₂ List.cons (TRef.nullary_plain main_call0_c_1 (by decide) rfl _) <|
  congrArg₂ List.cons (TRef.nullary_plain main_call0_c_2 (by decide) rfl _) <|
  congrArg₂ List.cons (TRef.unary_plain main_call0_c_2 main_call0_v5 (by decide) rfl (by decide) rfl _) <|
  congrArg₂ List.cons (TRef.binary_plain main_call0_v4 main_call0_v5 main_call0_v6 (by decide) rfl (by decide) rfl (by decide) rfl _) <|
  congrArg₂ List.cons (TRef.unary_plain main_call0_c_1 main_call0_v7 (by decide) rfl (by decide) rfl _) <|
  congrArg₂ List.cons (TRef.unary_plain main_call0_v7 main_call0_v8 (by decide) rfl (by decide) rfl _) <|
  congrArg₂ List.cons (TRef.binary_plain main_call0_v4 main_call0_v8 main_call0_v9 (by decide) rfl (by decide) rfl (by decide) rfl _) <|
  congrArg₂ List.cons (TRef.binary_plain main_call0_v6 main_call0_v9 main_call0_v10 (by decide) rfl (by decide) rfl (by decide) rfl _) <|
  congrArg₂ List.cons (TRef.nullary_plain main_call0_c_3 (by decide) rfl _) <|
  congrArg₂ List.cons (TRef.binary_plain main_call0_v10 main_call0_c_3 main_call0_v11 (by decide) rfl (by decide) rfl (by decide) rfl _) <|
  congrArg₂ List.cons (TRef.binary_plain main_arg0 main_call0_v4 main_call0_v12 (by decide) rfl (by decide) rfl (by decide) rfl _) <|
  congrArg₂ List.cons (TRef.unary_plain main_call0_v11 main_call0_v13 (by decide) rfl (by decide) rfl _) <|
  congrArg₂ List.cons (TRef.nullary_plain main_call0_cst (by decide) rfl _) <|
  congrArg₂ List.cons (TRef.unary_plain main_call0_cst main_call0_v14 (by decide) rfl (by decide) rfl _) <|
  congrArg₂ List.cons (TRef.ternary_plain main_call0_v13 main_call0_v12 main_call0_v14 main_v1 (by decide) rfl (by decide) rfl (by decide) rfl (by decide) rfl _) <|
  congrArg₂ List.cons rfl <|
  congrArg₂ List.cons (TRef.nullary_plain main_call1_c (by decide) rfl _) <|
  congrArg₂ List.cons (TRef.unary_plain main_call1_c main_call1_v0 (by decide) rfl (by decide) rfl _) <|
  congrArg₂ List.cons (TRef.binary_plain main_v2 main_call1_v0 main_call1_v1 (by decide) rfl (by decide) rfl (by decide) rfl _) <|
  congrArg₂ List.cons (TRef.nullary_plain main_call1_c_0 (by decide) rfl _) <|
  congrArg₂ List.cons (TRef.unary_plain main_call1_c_0 main_call1_v2 (by decide) rfl (by decide) rfl _) <|
  congrArg₂ List.cons (TRef.binary_plain main_v2 main_call1_v2 main_call1_v3 (by decide) rfl (by decide) rfl (by decide) rfl _) <|
  congrArg₂ List.cons (TRef.ternary_plain main_call1_v1 main_call1_v3 main_v2 main_call1_v4 (by decide) rfl (by decide) rfl (by decide) rfl (by decide) rfl _) <|
  congrArg₂ List.cons (TRef.nullary_plain main_call1_c_1 (by decide) rfl _) <|
  congrArg₂ List.cons (TRef.nullary_plain main_call1_c_2 (by decide) rfl _) <|
  congrArg₂ List.cons (TRef.unary_plain main_call1_c_2 main_call1_v5 (by decide) rfl (by decide) rfl _) <|
  congrArg₂ List.cons (TRef.binary_plain main_call1_v4 main_call1_v5 main_call1_v6 (by decide) rfl (by decide) rfl (by decide) rfl _) <|
  congrArg₂ List.cons (TRef.unary_plain main_call1_c_1 main_call1_v7 (by decide) rfl (by decide) rfl _) <|
  congrArg₂ List.cons (TRef.unary_plain main_call1_v7 main_call1_v8 (by decide) rfl (by decide) rfl _) <|
  congrArg₂ List.cons (TRef.binary_plain main_call1_v4 main_call1_v8 main_call1_v9 (by decide) rfl (by decide) rfl (by decide) rfl _) <|
  congrArg₂ List.cons (TRef.binary_plain main_call1_v6 main_call1_v9 main_call1_v10 (by decide) rfl (by decide) rfl (by decide) rfl _) <|
  congrArg₂ List.cons (TRef.nullary_plain main_call1_c_3 (by decide) rfl _) <|
  congrArg₂ List.cons (TRef.binary_plain main_call1_v10 main_call1_c_3 main_call1_v11 (by decide) rfl (by decide) rfl (by decide) rfl _) <|
  congrArg₂ List.cons (TRef.binary_plain main_arg1 main_call1_v4 main_call1_v12 (by decide) rfl (by decide) rfl (by decide) rfl _) <|
  congrArg₂ List.cons (TRef.unary_plain main_call1_v11 main_call1_v13 (by decide) rfl (by decide) rfl _) <|
  congrArg₂ List.cons (TRef.nullary_plain main_call1_cst (by decide) rfl _) <|
  congrArg₂ List.cons (TRef.unary_plain main_call1_cst main_call1_v14 (by decide) rfl (by decide) rfl _) <|
  congrArg₂ List.cons (TRef.ternary_plain main_call1_v13 main_call1_v12 main_call1_v14 main_v3 (by decide) rfl (by decide) rfl (by decide) rfl (by decide) rfl _) <|
  congrArg₂ List.cons rfl <|
  congrArg₂ List.cons rfl <|
  congrArg₂ List.cons rfl <|
  congrArg₂ List.cons rfl <|
  congrArg₂ List.cons rfl <|
  congrArg₂ List.cons rfl <|
  rfl

/-- After the plain line, from any contents `V`, the result buffer holds the last stage's value of the four
    arguments' contents: each operation's result at its own buffer is its function of its operands' contents, at any
    other buffer what was there, and the stages are those functions composed in program order. -/
private theorem result_plain (V : Valuation τ sig (Elt F)) :
    after (opsP (F := F)) V (Proc.devRef .tc main_v7)
      = val_main_v7 (F := F) (V (Proc.devRef .tc main_arg0)) (V (Proc.devRef .tc main_arg1)) (V (Proc.devRef .tc main_arg2)) (V (Proc.devRef .tc main_arg3)) := by
  after_results_simp
  simp only [val_main_v0, val_main_call0_c, val_main_call0_v0, val_main_call0_v1, val_main_call0_c_0, val_main_call0_v2, val_main_call0_v3, val_main_call0_v4, val_main_call0_c_1, val_main_call0_c_2, val_main_call0_v5, val_main_call0_v6, val_main_call0_v7, val_main_call0_v8, val_main_call0_v9, val_main_call0_v10, val_main_call0_c_3, val_main_call0_v11, val_main_call0_v12, val_main_call0_v13, val_main_call0_cst, val_main_call0_v14, val_main_v1, val_main_v2, val_main_call1_c, val_main_call1_v0, val_main_call1_v1, val_main_call1_c_0, val_main_call1_v2, val_main_call1_v3, val_main_call1_v4, val_main_call1_c_1, val_main_call1_c_2, val_main_call1_v5, val_main_call1_v6, val_main_call1_v7, val_main_call1_v8, val_main_call1_v9, val_main_call1_v10, val_main_call1_c_3, val_main_call1_v11, val_main_call1_v12, val_main_call1_v13, val_main_call1_cst, val_main_call1_v14, val_main_v3, val_main_v4, val_main_v5, val_main_cst, val_main_v6, val_main_cst_0, val_main_v7]

/-- No operation writes argument 0. -/
private theorem arg0_plain (V : Valuation τ sig (Elt F)) :
    after (opsP (F := F)) V (Proc.devRef .tc main_arg0) = V (Proc.devRef .tc main_arg0) := by
  after_results_simp

/-- No operation writes argument 1. -/
private theorem arg1_plain (V : Valuation τ sig (Elt F)) :
    after (opsP (F := F)) V (Proc.devRef .tc main_arg1) = V (Proc.devRef .tc main_arg1) := by
  after_results_simp

/-- No operation writes argument 2. -/
private theorem arg2_plain (V : Valuation τ sig (Elt F)) :
    after (opsP (F := F)) V (Proc.devRef .tc main_arg2) = V (Proc.devRef .tc main_arg2) := by
  after_results_simp

/-- No operation writes argument 3. -/
private theorem arg3_plain (V : Valuation τ sig (Elt F)) :
    after (opsP (F := F)) V (Proc.devRef .tc main_arg3) = V (Proc.devRef .tc main_arg3) := by
  after_results_simp

/-- The same five equations over the printed list. -/
private theorem result_eq (V : Valuation τ sig (Elt F)) :
    after (ops (F := F)) V (Proc.devRef .tc main_v7)
      = val_main_v7 (F := F) (V (Proc.devRef .tc main_arg0)) (V (Proc.devRef .tc main_arg1)) (V (Proc.devRef .tc main_arg2)) (V (Proc.devRef .tc main_arg3)) := by
  rw [ops_eq]; exact result_plain V

private theorem arg0_eq (V : Valuation τ sig (Elt F)) :
    after (ops (F := F)) V (Proc.devRef .tc main_arg0) = V (Proc.devRef .tc main_arg0) := by
  rw [ops_eq]; exact arg0_plain V

private theorem arg1_eq (V : Valuation τ sig (Elt F)) :
    after (ops (F := F)) V (Proc.devRef .tc main_arg1) = V (Proc.devRef .tc main_arg1) := by
  rw [ops_eq]; exact arg1_plain V

private theorem arg2_eq (V : Valuation τ sig (Elt F)) :
    after (ops (F := F)) V (Proc.devRef .tc main_arg2) = V (Proc.devRef .tc main_arg2) := by
  rw [ops_eq]; exact arg2_plain V

private theorem arg3_eq (V : Valuation τ sig (Elt F)) :
    after (ops (F := F)) V (Proc.devRef .tc main_arg3) = V (Proc.devRef .tc main_arg3) := by
  rw [ops_eq]; exact arg3_plain V

end Plain

/-- On every device, from any memory with zero counters: every weakly fair execution of the reference terminates
    with its result at the last stage's value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = Cert.ReferenceIdeal.ReadP.val_main_v7 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq ValueP.scopedRefs_eq ValueP.scopedSems_eq defs main (fun _ => ValueP.ops) ValueP.main_eq (fun _ => ValueP.ops_sub) m ρ)

end Cert.ReferenceIdeal.RefRun

end
-- ==== Proof.RefValue.lean ====
/-
  The reference's last stage is the specification.

  With every index word a position: the word is not negative, so the gather's index is the word itself; it lies in
  `[0, 8191]`, so the in-range mask is set and the select keeps the gathered entry, which is the float array's entry
  at (batch, that position, channel); the difference, the absolute value, the sum over all (batch, pair, channel)
  added to the float zero, and the division are the specification's own.
-/
import proofs.«417695_j40845138985586_2_alg».proof.Proof.ReadP
import proofs.«417695_j40845138985586_2_alg».proof.Proof.Spec
import Idealize.ShloMosaic.PureOps.Ideal.Laws
import Idealize.ShloMosaic.Lib.ValueIdx
import Idealize.ShloMosaic.Lib.ReduceAll
import Idealize.ShloMosaic.Lib.Pipeline.Value

noncomputable section

namespace Cert.ReferenceIdeal.RefValue

open Cert.ReferenceIdeal Cert.ReferenceIdeal.Gen Idealize.ShloMosaic Idealize.ShloMosaic.TcCoe
open Cert.Proof
open Cert.ReferenceIdeal.ReadP Idealize.ShloMosaic.ValueIdx
open scoped BigOperators

/-! ## Words: the signed comparisons of a position word -/

/-- A word below 8192 reads the same signed and unsigned. -/
private theorem toInt_of_small {w : BitVec 32} (h : w.toNat < 8192) : w.toInt = (w.toNat : Int) := by
  rw [BitVec.toInt_eq_toNat_cond, if_pos (by omega)]

/-- A position word is not negative … -/
private theorem slt_zero {w : BitVec 32} (h : w.toNat < 8192) : IntOp.cmpi .slt w 0#32 = 0#1 := by
  have hti := toInt_of_small h
  have h0 : (0#32 : BitVec 32).toInt = 0 := by decide
  have hb : w.slt 0#32 = false := by
    simp only [BitVec.slt, hti, h0, decide_eq_false_iff_not]; omega
  show BitVec.ofBool (w.slt 0#32) = 0#1
  rw [hb]; rfl

/-- … it is at least zero … -/
private theorem sge_zero {w : BitVec 32} (h : w.toNat < 8192) : IntOp.cmpi .sge w 0#32 = 1#1 := by
  have hti := toInt_of_small h
  have h0 : (0#32 : BitVec 32).toInt = 0 := by decide
  have hb : (0#32 : BitVec 32).sle w = true := by
    simp only [BitVec.sle, hti, h0, decide_eq_true_eq]; omega
  show BitVec.ofBool ((0#32 : BitVec 32).sle w) = 1#1
  rw [hb]; rfl

/-- … and at most 8191. -/
private theorem sle_max {w : BitVec 32} (h : w.toNat < 8192) : IntOp.cmpi .sle w 8191#32 = 1#1 := by
  have hti := toInt_of_small h
  have h0 : (8191#32 : BitVec 32).toInt = 8191 := by decide
  have hb : w.sle 8191#32 = true := by
    simp only [BitVec.sle, hti, h0, decide_eq_true_eq]; omega
  show BitVec.ofBool (w.sle 8191#32) = 1#1
  rw [hb]; rfl

/-- A left fold by `and` from 1 over words that are all 1 is 1. -/
private theorem foldl_andi_ones {ι : Type} (x : ι → BitVec 1) (hx : ∀ i, x i = 1#1) :
    ∀ l : List ι, l.foldl (fun r i => IntOp.andi r (x i)) 1#1 = 1#1
  | [] => rfl
  | a :: l => by
    have h1 : IntOp.andi 1#1 (x a) = 1#1 := by rw [hx a]; rfl
    simp only [List.foldl_cons, h1]
    exact foldl_andi_ones x hx l

/-! ## The gather with a batching axis, read at an index -/

/-- The start-indices index `(b, p, 0)`. -/
private abbrev siAt (b : Fin 256) (p : Fin 16383) : S256x16383x1.Idx := ix3 b p (0 : Fin 1)

/-- Result element `(b, p, c)` of the gather is the operand at batch `b`, at the start index `idx (b, p, 0)` read signed
    and clamped into `[0, 8191]`, channel `c`. -/
private theorem gather_apply {α : Type} (x : S256x8192x2.Idx → α) (idx : IVec S256x16383x1 32)
    (b : Fin 256) (p : Fin 16383) (c : Fin 2) :
    Host.gather gather_S256x8192x2_S256x16383x1_S256x16383x2_2_1_0_0_1_2_112 x idx (ix3 b p c)
      = x (ix3 b ⟨min (idx (siAt b p)).toInt.toNat 8191, by omega⟩ c) := by
  unfold Host.gather
  congr 1
  funext a
  refine Fin.ext ?_
  match a with
  | ⟨0, _⟩ =>
    show GatherDims.start _ (ix3 b p c) idx 0 + GatherDims.batchCoord _ (ix3 b p c) 0 + GatherDims.offCoord _ (ix3 b p c) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show GatherDims.start _ (ix3 b p c) idx 1 + GatherDims.batchCoord _ (ix3 b p c) 1 + GatherDims.offCoord _ (ix3 b p c) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S256x8192x2_S256x16383x1_S256x16383x2_2_1_0_0_1_2_112.startIndexMap from
      List.mem_singleton.mpr rfl)]
    have hsi : gather_S256x8192x2_S256x16383x1_S256x16383x2_2_1_0_0_1_2_112.siIdx (ix3 b p c)
        ⟨List.idxOf (1 : Fin 3) gather_S256x8192x2_S256x16383x1_S256x16383x2_2_1_0_0_1_2_112.startIndexMap,
          List.idxOf_lt_length_iff.2 (List.mem_singleton.mpr rfl)⟩ = siAt b p := by
      funext k; refine Fin.ext ?_
      match k with
      | ⟨0, _⟩ => rfl
      | ⟨1, _⟩ => rfl
      | ⟨2, _⟩ => rfl
    rw [hsi]
    rfl
  | ⟨2, _⟩ =>
    show GatherDims.start _ (ix3 b p c) idx 2 + GatherDims.batchCoord _ (ix3 b p c) 2 + GatherDims.offCoord _ (ix3 b p c) 2 = c.val
    have hs : GatherDims.start gather_S256x8192x2_S256x16383x1_S256x16383x2_2_1_0_0_1_2_112 (ix3 b p c) idx 2 = 0 := by
      unfold GatherDims.start; rw [dif_neg (by decide)]
    have ho : GatherDims.offCoord gather_S256x8192x2_S256x16383x1_S256x16383x2_2_1_0_0_1_2_112 (ix3 b p c) 2 = c.val := by
      unfold GatherDims.offCoord; rw [dif_pos (by decide)]; rfl
    rw [GatherDims.batchCoord_eq_zero _ _ _ (by decide), hs, ho]
    omega

/-! ## The index chain of one take, at an in-range index array -/

section Chain
variable (I : Spec.IArr) (hI : Spec.InRange I)
include hI

/-- The broadcast index array read at `(b, p, 0)` is the word at `(b, p)`. -/
private theorem idx_v0 (b : Fin 256) (p : Fin 16383) : idx_main_v0 (siAt b p) = ix2 b p := by
  funext a; match a with | ⟨0, _⟩ => rfl | ⟨1, _⟩ => rfl

/-- The wrapped index is the word itself: it is not negative. -/
private theorem v4_0 (i : S256x16383x1.Idx) : val_main_call0_v4 (F := Ideal) I i = I (idx_main_v0 i) := by
  rw [val_main_call0_v4_apply, val_main_call0_v1_apply, val_main_v0_apply, val_main_call0_v0_apply,
    val_main_call0_c_apply, slt_zero (hI _)]
  exact select_zero _ _

/-- The in-range mask is set everywhere. -/
private theorem v10_0 (i : S256x16383x1.Idx) : val_main_call0_v10 (F := Ideal) I i = 1#1 := by
  rw [val_main_call0_v10_apply, val_main_call0_v6_apply, val_main_call0_v9_apply, v4_0 I hI,
    val_main_call0_v5_apply, val_main_call0_c_2_apply, val_main_call0_v8_apply, val_main_call0_v7_apply,
    val_main_call0_c_1_apply, sge_zero (hI _), sle_max (hI _)]
  rfl

/-- Its `and` over the size-one last axis is set at every pair. -/
private theorem v11_0 (j : S256x16383.Idx) : val_main_call0_v11 (F := Ideal) I j = 1#1 := by
  unfold val_main_call0_v11
  rw [Host.reduce_eq_foldl, val_main_call0_c_3_apply]
  exact foldl_andi_ones _ (v10_0 I hI) _

/-- The take reads the float array at the position the word names. -/
private theorem v1_0 (P : Spec.FArr) (b : Fin 256) (p : Fin 16383) (c : Fin 2) :
    val_main_v1 (F := Ideal) P I (ix3 b p c) = Spec.sel P I b p c := by
  rw [val_main_v1_apply, val_main_call0_v13_apply, v11_0 I hI, select_one]
  unfold val_main_call0_v12
  rw [gather_apply]
  unfold Spec.sel
  congr 1
  have hw := hI (ix2 b p)
  have hti := toInt_of_small hw
  funext a
  match a with
  | ⟨0, _⟩ => rfl
  | ⟨1, _⟩ =>
    refine Fin.ext ?_
    show min (val_main_call0_v4 (F := Ideal) I (siAt b p)).toInt.toNat 8191 = (I (ix2 b p)).toNat % 8192
    rw [v4_0 I hI, idx_v0 I hI, hti, Int.toNat_natCast]; omega
  | ⟨2, _⟩ => rfl

end Chain

/-! ## The same chain for the second take -/

section Chain1
variable (I : Spec.IArr) (hI : Spec.InRange I)
include hI

/-- The broadcast index array read at `(b, p, 0)` is the word at `(b, p)`. -/
private theorem idx_v2 (b : Fin 256) (p : Fin 16383) : idx_main_v2 (siAt b p) = ix2 b p := by
  funext a; match a with | ⟨0, _⟩ => rfl | ⟨1, _⟩ => rfl

/-- The wrapped index is the word itself: it is not negative. -/
private theorem v4_1 (i : S256x16383x1.Idx) : val_main_call1_v4 (F := Ideal) I i = I (idx_main_v2 i) := by
  rw [val_main_call1_v4_apply, val_main_call1_v1_apply, val_main_v2_apply, val_main_call1_v0_apply,
    val_main_call1_c_apply, slt_zero (hI _)]
  exact select_zero _ _

/-- The in-range mask is set everywhere. -/
private theorem v10_1 (i : S256x16383x1.Idx) : val_main_call1_v10 (F := Ideal) I i = 1#1 := by
  rw [val_main_call1_v10_apply, val_main_call1_v6_apply, val_main_call1_v9_apply, v4_1 I hI,
    val_main_call1_v5_apply, val_main_call1_c_2_apply, val_main_call1_v8_apply, val_main_call1_v7_apply,
    val_main_call1_c_1_apply, sge_zero (hI _), sle_max (hI _)]
  rfl

/-- Its `and` over the size-one last axis is set at every pair. -/
private theorem v11_1 (j : S256x16383.Idx) : val_main_call1_v11 (F := Ideal) I j = 1#1 := by
  unfold val_main_call1_v11
  rw [Host.reduce_eq_foldl, val_main_call1_c_3_apply]
  exact foldl_andi_ones _ (v10_1 I hI) _

/-- The take reads the float array at the position the word names. -/
private theorem v3_1 (P : Spec.FArr) (b : Fin 256) (p : Fin 16383) (c : Fin 2) :
    val_main_v3 (F := Ideal) P I (ix3 b p c) = Spec.sel P I b p c := by
  rw [val_main_v3_apply, val_main_call1_v13_apply, v11_1 I hI, select_one]
  unfold val_main_call1_v12
  rw [gather_apply]
  unfold Spec.sel
  congr 1
  have hw := hI (ix2 b p)
  have hti := toInt_of_small hw
  funext a
  match a with
  | ⟨0, _⟩ => rfl
  | ⟨1, _⟩ =>
    refine Fin.ext ?_
    show min (val_main_call1_v4 (F := Ideal) I (siAt b p)).toInt.toNat 8191 = (I (ix2 b p)).toNat % 8192
    rw [v4_1 I hI, idx_v2 I hI, hti, Int.toNat_natCast]; omega
  | ⟨2, _⟩ => rfl

end Chain1

/-! ## The sum over all (batch, pair, channel) -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With both index arrays in range the reference's result is the specification's. -/
theorem ref_eq_spec (P T : Spec.FArr) (I J : Spec.IArr) (hI : Spec.InRange I) (hJ : Spec.InRange J) :
    Cert.ReferenceIdeal.ReadP.val_main_v7 (F := Ideal) P T I J = Spec.result P T I J := by
  have hsum : ∑ j : S256x16383x2.Idx, val_main_v5 (F := Ideal) P T I J j = Spec.lossSum P T I J := by
    rw [sum_idx3]
    unfold Spec.lossSum Spec.pairTerm
    refine Finset.sum_congr rfl fun b _ => Finset.sum_congr rfl fun p _ => Finset.sum_congr rfl fun c _ => ?_
    rw [val_main_v5_apply, val_main_v4_apply, v1_0 I hI, v3_1 J hJ]
    rfl
  funext i
  rw [val_main_v7_apply, val_main_v6_apply, hsum]
  rfl

end Cert.ReferenceIdeal.RefValue

end
-- ==== Proof.lean ====
/-
  The kernel and its jnp reference compute the same number over the extended reals.

  The program: for 256 batches, two float arrays P, T of shape [8192, 2] per batch (sequence position, channel) and
  two arrays I, J of 16383 index words per batch; the result is
      ( ∑ over batches b and pairs p of  ∑ c, |P[b, I[b,p], c] - T[b, J[b,p], c]| ) / (256 · 8192).
  The reference gathers the entries (jnp's take_along_axis), the kernel selects them by a contraction with a 0/1
  column "position = index word" on 64 tiles of 256 columns per batch (the index rows padded by one column holding
  8192, the word of no position), accumulating the tiles' sums in its output block across the 64 grid points of a
  batch group. Under the precondition — every index word a position, 0 ≤ w < 8192 — the contraction picks exactly
  the gathered entry, the padding column contributes |0 - 0| = 0, and the two sums are one sum regrouped
  (Spec.lean states the number, Bridge.lean the regrouping; only a · 0 = 0, a · 1 = a and the commutativity and
  associativity of + are used, which hold at the infinities too, so the floats' finiteness is never opened).

  The three frames: each printed program's run terminates and leaves its arguments as launched (BodyData.lean and
  its copy for the kernel as printed; RefRun.lean for the reference). The idealization rewrote no operation, so
  there is nothing to preserve. The value claim: KernelRun.lean reads the kernel's result off its run, RefValue.lean
  the reference's off its last stage, PreDecode.lean the index range off the precondition.
-/
import proofs.«417695_j40845138985586_2_alg».proof.Defs
import proofs.«417695_j40845138985586_2_alg».proof.Proof.Gen.Kernel
import proofs.«417695_j40845138985586_2_alg».proof.Proof.Gen.KernelIdeal
import proofs.«417695_j40845138985586_2_alg».proof.Proof.Gen.ReferenceIdeal
import proofs.«417695_j40845138985586_2_alg».proof.Proof.Gen.Pre_finite_inputs
import proofs.«417695_j40845138985586_2_alg».proof.Proof.KBodyData
import proofs.«417695_j40845138985586_2_alg».proof.Proof.BodyData
import proofs.«417695_j40845138985586_2_alg».proof.Proof.KernelRun
import proofs.«417695_j40845138985586_2_alg».proof.Proof.Bridge
import proofs.«417695_j40845138985586_2_alg».proof.Proof.PreDecode
import proofs.«417695_j40845138985586_2_alg».proof.Proof.RefRun
import proofs.«417695_j40845138985586_2_alg».proof.Proof.RefValue

noncomputable section

namespace Cert.Proof

open Idealize.ShloMosaic Idealize.ShloMosaic.TcCoe Idealize.SL.Sem

/-- The kernel as printed runs and keeps its arguments. -/
theorem frame_p : Cert.frame_Kernel := fun m ρ _ => Cert.Kernel.Body.frame (F := Bits) m ρ

/-- The idealized kernel runs and keeps its arguments. -/
theorem frame_pi : Cert.frame_KernelIdeal := fun m ρ _ => Cert.KernelIdeal.Body.frame (F := Ideal) m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments and satisfy the precondition, both idealized programs end at the
    specification's number: the kernel's grouping of the sum is the reference's once every index word is a position. -/
theorem algebraic : Cert.algebraic_KernelIdeal_ReferenceIdeal := by
  intro m ρ m' ρ' hpre hagree
  have hR : ∀ c : Dev Cert.KernelIdeal.nD,
      Spec.InRange (m ((c.tc : Thread Cert.KernelIdeal.nD Cert.KernelIdeal.τ).loc Cert.KernelIdeal.main_arg2)) ∧ Spec.InRange (m ((c.tc : Thread Cert.KernelIdeal.nD Cert.KernelIdeal.τ).loc Cert.KernelIdeal.main_arg3)) :=
    fun c => Cert.Proof.PreDecode.inRange_of_pre _ _ _ _ (hpre c)
  refine ⟨fun c => Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Proof.Bridge.kernelResult_eq_result _ _ _ _ (hR c).1 (hR c).2), (h c).2⟩)
      (Cert.KernelIdeal.KRun.kernel_run m ρ)
  · refine (θ_run Cert.ReferenceIdeal.defs _ _).mono (fun _ h c => ⟨?_, (h c).2⟩)
      (Cert.ReferenceIdeal.RefRun.run (F := Ideal) m' ρ')
    rw [(h c).1, (hagree c).1, (hagree c).2.1, (hagree c).2.2.1, (hagree c).2.2.2]
    exact Cert.ReferenceIdeal.RefValue.ref_eq_spec _ _ _ _ (hR c).1 (hR c).2

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
